-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S500000x32 : Shape := ⟨2, ![500000, 32]⟩
abbrev S32x128 : Shape := ⟨2, ![32, 128]⟩
abbrev S128 : Shape := ⟨1, ![128]⟩
abbrev S384x128 : Shape := ⟨2, ![384, 128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x32 : S_.BroadcastsInDim S500000x32 (![] : Fin 0 → Fin S500000x32.rank)
  reducesTo_S500000x32_S_d0_1 : S500000x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg10 : FVec F S128 .f32) (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_cst_22 : FVec F S_ .f32 := constant S_ .f32 0x00000000#32
  let main_v59 : FVec F S128 .f32 := broadcastInDim S128 ![] bcast_S_S128 main_cst_22
  let main_v60 : IVec S128 1 := cmpf .oge main_arg10 main_v59
  let main_c_23 : IVec S_ 1 := constantI S_ 1 1#1
  let main_v61 : IVec S_ 1 := (fun x v => Host.reduce IntOp.andi x v reducesTo_S128_S_d0 h_S_) main_v60 main_c_23
  let main_v62 : IVec S_ 1 := andi main_v58 main_v61
  main_v62

def fn_part2 {F : FTy → Type} [FloatOps F] (main_arg8 : FVec F S128 .f32) (main_arg9 : FVec F S128 .f32) (main_arg10 : FVec F S128 .f32) (main_arg11 : FVec F S128x128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg10 main_arg12 main_v48 main_v49 main_v50

def fn_part1 {F : FTy → Type} [FloatOps F] (main_arg5 : FVec F S384x128 .f32) (main_arg6 : FVec F S128 .f32) (main_arg7 : FVec F S128 .f32) (main_arg8 : FVec F S128 .f32) (main_arg9 : FVec F S128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x500000 32) (main_arg2 : FVec F S500000x32 .f32) (main_arg3 : FVec F S32x128 .f32) (main_arg4 : FVec F S128 .f32) (main_arg5 : FVec F S384x128 .f32) (main_arg6 : FVec F S128 .f32) (main_arg7 : FVec F S128 .f32) (main_arg8 : FVec F S128 .f32) (main_arg9 : FVec F S128 .f32) (main_arg10 : FVec F S128 .f32) (main_arg11 : FVec F S128x128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x32 .f32 := Host.absf main_arg2
  let main_cst_0 : FVec F S_ .f32 := constant S_ .f32 0x7F800000#32
  let main_v5 : FVec F S500000x32 .f32 := broadcastInDim S500000x32 ![] bcast_S_S500000x32 main_cst_0
  let main_v6 : IVec S500000x32 1 := cmpf .olt main_v4 main_v5
  let main_c_1 : IVec S_ 1 := constantI S_ 1 1#1
  let main_v7 : IVec S_ 1 := (fun x v => Host.reduce IntOp.andi x v reducesTo_S500000x32_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x500000 : Shape := ⟨2, ![2, 500000]⟩
abbrev S500000x32 : Shape := ⟨2, ![500000, 32]⟩
abbrev S32x128 : Shape := ⟨2, ![32, 128]⟩
abbrev S128 : Shape := ⟨1, ![128]⟩
abbrev S384x128 : Shape := ⟨2, ![384, 128]⟩
abbrev S128x128 : Shape := ⟨2, ![128, 128]⟩
abbrev S1x500000 : Shape := ⟨2, ![1, 500000]⟩
abbrev S500000 : Shape := ⟨1, ![500000]⟩
abbrev S_ : Shape := ⟨0, ![]⟩
abbrev S501760 : Shape := ⟨1, ![501760]⟩
abbrev S501760x32 : Shape := ⟨2, ![501760, 32]⟩
abbrev S501760x1 : Shape := ⟨2, ![501760, 1]⟩
abbrev S501760x128 : Shape := ⟨2, ![501760, 128]⟩
abbrev S1x128 : Shape := ⟨2, ![1, 128]⟩
abbrev S2048x128 : Shape := ⟨2, ![2048, 128]⟩
abbrev S2048x32 : Shape := ⟨2, ![2048, 32]⟩
abbrev S500000x128 : Shape := ⟨2, ![500000, 128]⟩

abbrev nBuf : Space → Nat
  | .hbm => 61
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x32, .f32⟩
  | .hbm, ⟨3, _⟩ => ⟨S32x128, .f32⟩
  | .hbm, ⟨4, _⟩ => ⟨S128, .f32⟩
  | .hbm, ⟨5, _⟩ => ⟨S384x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x500000, .i32⟩
  | .hbm, ⟨14, _⟩ => ⟨S500000, .i32⟩
  | .hbm, ⟨15, _⟩ => ⟨S1x500000, .i32⟩
  | .hbm, ⟨16, _⟩ => ⟨S500000, .i32⟩
  | .hbm, ⟨17, _⟩ => ⟨S_, .i32⟩
  | .hbm, ⟨18, _⟩ => ⟨S_, .i32⟩
  | .hbm, ⟨19, _⟩ => ⟨S501760, .i32⟩
  | .hbm, ⟨20, _⟩ => ⟨S_, .i32⟩
  | .hbm, ⟨21, _⟩ => ⟨S_, .i32⟩
  | .hbm, ⟨22, _⟩ => ⟨S501760, .i32⟩
  | .hbm, ⟨23, _⟩ => ⟨S_, .i32⟩
  | .hbm, ⟨24, _⟩ => ⟨S_, .f32⟩
  | .hbm, ⟨25, _⟩ => ⟨S501760x32, .f32⟩
  | .hbm, ⟨26, _⟩ => ⟨S_, .i32⟩
  | .hbm, ⟨27, _⟩ => ⟨S501760, .i32⟩
  | .hbm, ⟨28, _⟩ => ⟨S501760, .i1⟩
  | .hbm, ⟨29, _⟩ => ⟨S_, .i32⟩
  | .hbm, ⟨30, _⟩ => ⟨S501760, .i32⟩
  | .hbm, ⟨31, _⟩ => ⟨S501760, .i32⟩
  | .hbm, ⟨32, _⟩ => ⟨S501760, .i32⟩
  | .hbm, ⟨33, _⟩ => ⟨S501760x1, .i32⟩
  | .hbm, ⟨34, _⟩ => ⟨S501760x128, .f32⟩
  | .hbm, ⟨35, _⟩ => ⟨S_, .i32⟩
  | .hbm, ⟨36, _⟩ => ⟨S501760, .i32⟩
  | .hbm, ⟨37, _⟩ => ⟨S501760, .i1⟩
  | .hbm, ⟨38, _⟩ => ⟨S_, .i32⟩
  | .hbm, ⟨39, _⟩ => ⟨S501760, .i32⟩
  | .hbm, ⟨40, _⟩ => ⟨S501760, .i32⟩
  | .hbm, ⟨41, _⟩ => ⟨S501760, .i32⟩
  | .hbm, ⟨42, _⟩ => ⟨S501760x1, .i32⟩
  | .hbm, ⟨43, _⟩ => ⟨S501760x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S501760x128, .f32⟩
  | .hbm, ⟨60, _⟩ => ⟨S500000x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x32, .f32⟩
  | .local _ .vmem, ⟨5, _⟩ => ⟨S2048x32, .f32⟩
  | .local _ .vmem, ⟨6, _⟩ => ⟨S32x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S2048x128, .f32⟩
  | .local _ .vmem, ⟨17, _⟩ => ⟨S2048x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_v0 : Ref sig .tc := ⟨.hbm, 18, rfl⟩
abbrev main_v4 : Ref sig .tc := ⟨.hbm, 19, rfl⟩
abbrev main_c_0 : Ref sig .tc := ⟨.hbm, 20, rfl⟩
abbrev main_call1_v0 : Ref sig .tc := ⟨.hbm, 21, rfl⟩
abbrev main_v5 : Ref sig .tc := ⟨.hbm, 22, rfl⟩
abbrev main_c_1 : Ref sig .tc := ⟨.hbm, 23, rfl⟩
abbrev main_call2_v0 : Ref sig .tc := ⟨.hbm, 24, rfl⟩
abbrev main_v6 : Ref sig .tc := ⟨.hbm, 25, rfl⟩
abbrev main_c_2 : Ref sig .tc := ⟨.hbm, 26, rfl⟩
abbrev main_v7 : Ref sig .tc := ⟨.hbm, 27, rfl⟩
abbrev main_v8 : Ref sig .tc := ⟨.hbm, 28, rfl⟩
abbrev main_c_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_c_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  pads_S500000_S501760_017600 : S500000.Pads (![0] : Fin 1 → Nat) ![1760] ![0] S501760
  h_S_ : 0 < S_.numel
  pads_S500000x32_S501760x32_017600_000 : S500000x32.Pads (![0, 0] : Fin 2 → Nat) ![1760, 0] ![0, 0] S501760x32
  bcast_S_S501760 : S_.BroadcastsInDim S501760 (![] : Fin 0 → Fin S501760.rank)
  bcast_S501760_S501760x1_0 : S501760.BroadcastsInDim S501760x1 (![0] : Fin 1 → Fin S501760x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  bcast_S_S128 : S_.BroadcastsInDim S128 (![] : Fin 0 → Fin S128.rank)
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S501760x128_S500000x128_0_0 : S501760x128.Slices ![0, 0] S500000x128
  gather_S100000x128_S501760x1_S501760x128_1_0_n_n_0_1_1128_wf : GatherDims.WF S100000x128 S501760x1 S501760x128 [1] [0] [] [0] [] 1 ![1, 128]
  dot_S2048x32_S32x128_S2048x128_1_0_0_1_n_n_wf : DotDims.WF S2048x32 S32x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S501760x128.size a
  hwx0_0 : ∀ i : grid0.Coords, EltTy.bits .f32 = 32 ∨ (Rect.block (s := S501760x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S501760x128.size a
  hwx0_1 : ∀ i : grid0.Coords, EltTy.bits .f32 = 32 ∨ (Rect.block (s := S501760x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S501760x32.size a
  hwx0_2 : ∀ i : grid0.Coords, EltTy.bits .f32 = 32 ∨ (Rect.block (s := S501760x32) S2048x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x128.size a ≤ S501760x128.size a
  hwx0_13 : ∀ i : grid0.Coords, EltTy.bits .f32 = 32 ∨ (Rect.block (s := S501760x128) S2048x128.size (cc0_transform_13 i) (hinb0_13 i)).WholeWords (EltTy.packing .f32)

variable [Facts₀]

def gather_S100000x128_S501760x1_S501760x128_1_0_n_n_0_1_1128 : GatherDims S100000x128 S501760x1 S501760x128 where
  offsetDims := [1]
  collapsedSliceDims := [0]
  operandBatchingDims := []
  startIndicesBatchingDims := []
  startIndexMap := [0]
  indexVectorDim := 1
  sliceSizes := ![1, 128]
  wf := gather_S100000x128_S501760x1_S501760x128_1_0_n_n_0_1_1128_wf
def dot_S2048x32_S32x128_S2048x128_1_0_0_1_n_n : DotDims S2048x32 S32x128 S2048x128 where
  lhsContracting := [1]
  rhsContracting := [0]
  lhsNonContracting := [0]
  rhsNonContracting := [1]
  lhsBatch := []
  rhsBatch := []
  wf := dot_S2048x32_S32x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v13) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v34) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v32) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v35) S2048x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S500000x32 : Shape := ⟨2, ![500000, 32]⟩
abbrev S32x128 : Shape := ⟨2, ![32, 128]⟩
abbrev S128 : Shape := ⟨1, ![128]⟩
abbrev S384x128 : Shape := ⟨2, ![384, 128]⟩
abbrev S128x128 : Shape := ⟨2, ![128, 128]⟩
abbrev S500000x128 : Shape := ⟨2, ![500000, 128]⟩
abbrev S1x128 : Shape := ⟨2, ![1, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x384 : Shape := ⟨2, ![500000, 384]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x32, .f32⟩
  | .hbm, ⟨3, _⟩ => ⟨S32x128, .f32⟩
  | .hbm, ⟨4, _⟩ => ⟨S128, .f32⟩
  | .hbm, ⟨5, _⟩ => ⟨S384x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S500000x128, .f32⟩
  | .hbm, ⟨14, _⟩ => ⟨S1x128, .f32⟩
  | .hbm, ⟨15, _⟩ => ⟨S500000x128, .f32⟩
  | .hbm, ⟨16, _⟩ => ⟨S500000x128, .f32⟩
  | .hbm, ⟨17, _⟩ => ⟨S500000x128, .f32⟩
  | .hbm, ⟨18, _⟩ => ⟨S1x500000, .i32⟩
  | .hbm, ⟨19, _⟩ => ⟨S500000, .i32⟩
  | .hbm, ⟨20, _⟩ => ⟨S1x500000, .i32⟩
  | .hbm, ⟨21, _⟩ => ⟨S500000, .i32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x128, .f32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000x128, .f32⟩
  | .hbm, ⟨40, _⟩ => ⟨S500000x384, .f32⟩
  | .hbm, ⟨41, _⟩ => ⟨S500000x128, .f32⟩
  | .hbm, ⟨42, _⟩ => ⟨S1x128, .f32⟩
  | .hbm, ⟨43, _⟩ => ⟨S500000x128, .f32⟩
  | .hbm, ⟨44, _⟩ => ⟨S500000x128, .f32⟩
  | .hbm, ⟨45, _⟩ => ⟨S1x128, .f32⟩
  | .hbm, ⟨46, _⟩ => ⟨S500000x128, .f32⟩
  | .hbm, ⟨47, _⟩ => ⟨S500000x128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S500000x128, .f32⟩
  | .hbm, ⟨55, _⟩ => ⟨S500000x128, .f32⟩
  | .hbm, ⟨56, _⟩ => ⟨S1x128, .f32⟩
  | .hbm, ⟨57, _⟩ => ⟨S500000x128, .f32⟩
  | .hbm, ⟨58, _⟩ => ⟨S500000x128, .f32⟩
  | .hbm, ⟨59, _⟩ => ⟨S_, .f32⟩
  | .hbm, ⟨60, _⟩ => ⟨S500000x128, .f32⟩
  | .hbm, ⟨61, _⟩ => ⟨S500000x128, .f32⟩
  | .hbm, ⟨62, _⟩ => ⟨S500000x128, .f32⟩
  | .hbm, ⟨63, _⟩ => ⟨S1x128, .f32⟩
  | .hbm, ⟨64, _⟩ => ⟨S500000x128, .f32⟩
  | .hbm, ⟨65, _⟩ => ⟨S500000x128, .f32⟩
  | .hbm, ⟨66, _⟩ => ⟨S_, .f32⟩
  | .hbm, ⟨67, _⟩ => ⟨S500000x128, .f32⟩
  | .hbm, ⟨68, _⟩ => ⟨S500000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call0_cst : Ref sig .tc := ⟨.hbm, 59, rfl⟩
abbrev main_call0_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call1_cst : Ref sig .tc := ⟨.hbm, 66, rfl⟩
abbrev main_call1_v0 : Ref sig .tc := ⟨.hbm, 67, rfl⟩
abbrev main_v46 : Ref sig .tc := ⟨.hbm, 68, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S_S128 : S_.BroadcastsInDim S128 (![] : Fin 0 → Fin S128.rank)
  bcast_S_S500000x128 : S_.BroadcastsInDim S500000x128 (![] : Fin 0 → Fin S500000x128.rank)
  dot_S500000x32_S32x128_S500000x128_1_0_0_1_n_n_wf : DotDims.WF S500000x32 S32x128 S500000x128 [1] [0] [0] [1] [] []
  gather_S100000x128_S500000x1_S500000x128_1_0_n_n_0_1_1128_wf : GatherDims.WF S100000x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x128_S500000x128_1_0_0_1_n_n_wf : DotDims.WF S500000x128 S128x128 S500000x128 [1] [0] [0] [1] [] []

variable [Facts₀]

def dot_S500000x32_S32x128_S500000x128_1_0_0_1_n_n : DotDims S500000x32 S32x128 S500000x128 where
  lhsContracting := [1]
  rhsContracting := [0]
  lhsNonContracting := [0]
  rhsNonContracting := [1]
  lhsBatch := []
  rhsBatch := []
  wf := dot_S500000x32_S32x128_S500000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf

class Facts : Prop extends Facts₀ where

variable [Facts]
-- ==== Proof.Spec.lean ====
/-
  The edge model's forward pass, written once as mathematics over the extended reals.

  For edge `e` with end nodes `r = row e`, `c = col e` (a negative node number counts from the end, then the number is
  clamped into the table), with `f = tanh (attr e · W1 + b1)` the edge's feature row and `s = γ / √(var + ε)` the
  batch-norm scale, the result row is

    relu ( relu ( (([x r, x c, f] · W2 + b2) − μ) · s + β ) · W3 + b3 ).

  That is the reference's arrangement (`refOut`). The kernel computes the same row from the three 128-row bands of
  `W2` separately and with the batch norm folded into a scale and a shift, `lin · s + (β − μ · s)` (`kOutRow`).
  The two arrangements agree when the quantities are real numbers: splitting the sum over 384 columns needs nothing,
  moving `μ · s` across the sum needs `s`, `μ`, `β` and `lin` finite, and `s` is finite because `var ≥ 0` keeps
  `√(var + ε)` positive.
-/
import Idealize.ShloMosaic.PureOps.Ideal
import Idealize.ShloMosaic.Lib.ValueIdx

noncomputable section

namespace Cert.EdgeModel

open Idealize.ShloMosaic Idealize.ShloMosaic.ValueIdx

/-- The float zero and the batch-norm ε (the single-precision word nearest 1e-5), as extended reals. -/
abbrev zeroF : EReal := Ideal.ofBits .f32 0x00000000#32
abbrev epsF : EReal := Ideal.ofBits .f32 0x3727C5AC#32

/-- The node a 32-bit row number names: a negative number counts from the end of the 100000-row table, and the
    number is then read signed and clamped into the table. -/
def nodeOf (r : BitVec 32) : Fin 100000 :=
  ⟨min (Scalar.select (IntOp.cmpi .slt r 0#32) (IntOp.addi r 100000#32) r).toInt.toNat (100000 - 1), by omega⟩

/-- An edge's row in the arrays padded to 501760 rows. -/
def padRow (e : Fin 500000) : Fin 501760 := ⟨e.val, by omega⟩

/-- The thirteen inputs. -/
structure Args where
  x : FVec Ideal ⟨2, ![100000, 128]⟩ .f32
  ei : IVec ⟨2, ![2, 500000]⟩ 32
  ea : FVec Ideal ⟨2, ![500000, 32]⟩ .f32
  W1 : FVec Ideal ⟨2, ![32, 128]⟩ .f32
  b1 : FVec Ideal ⟨1, ![128]⟩ .f32
  W2 : FVec Ideal ⟨2, ![384, 128]⟩ .f32
  b2 : FVec Ideal ⟨1, ![128]⟩ .f32
  gamma : FVec Ideal ⟨1, ![128]⟩ .f32
  beta : FVec Ideal ⟨1, ![128]⟩ .f32
  mu : FVec Ideal ⟨1, ![128]⟩ .f32
  var : FVec Ideal ⟨1, ![128]⟩ .f32
  W3 : FVec Ideal ⟨2, ![128, 128]⟩ .f32
  b3 : FVec Ideal ⟨1, ![128]⟩ .f32

namespace Args
variable (a : Args)

/-- The two end nodes of edge `e`. -/
def rowNode (e : Fin 500000) : Fin 100000 := nodeOf (a.ei (ix2 (0 : Fin 2) e))
def colNode (e : Fin 500000) : Fin 100000 := nodeOf (a.ei (ix2 (1 : Fin 2) e))

/-- Entry `i` of edge `e`'s feature row, `tanh (attr e · W1 + b1)`. -/
def edgeFeat (e : Fin 500000) (i : Fin 128) : EReal :=
  Ideal.tanh ((∑ l : Fin 32, a.ea (ix2 e l) * a.W1 (ix2 l i)) + a.b1 (ix1 i))

/-- Entry `k` of the 384-wide row `[x (row e), x (col e), feature e]`. -/
def catRow (e : Fin 500000) (k : Fin 384) : EReal :=
  if h : k.val < 128 then a.x (ix2 (a.rowNode e) (⟨k.val, h⟩ : Fin 128))
  else if h' : k.val < 256 then a.x (ix2 (a.colNode e) (⟨k.val - 128, by omega⟩ : Fin 128))
  else a.edgeFeat e (⟨k.val - 256, by omega⟩ : Fin 128)

/-- The first linear layer on the joined row. -/
def refLin (e : Fin 500000) (j : Fin 128) : EReal :=
  (∑ k : Fin 384, a.catRow e k * a.W2 (ix2 k j)) + a.b2 (ix1 j)

/-- The batch-norm scale `γ / √(var + ε)`. -/
def bnScale (j : Fin 128) : EReal := Ideal.div (a.gamma (ix1 j)) (Ideal.sqrt (a.var (ix1 j) + epsF))

/-- The hidden row: batch norm as the reference writes it, then the rectifier. -/
def refHidden (e : Fin 500000) (j : Fin 128) : EReal :=
  max ((a.refLin e j - a.mu (ix1 j)) * a.bnScale j + a.beta (ix1 j)) zeroF

/-- The result row. -/
def refOut (e : Fin 500000) (j : Fin 128) : EReal :=
  max ((∑ k : Fin 128, a.refHidden e k * a.W3 (ix2 k j)) + a.b3 (ix1 j)) zeroF

/-- The result array, index by index. -/
def G : FVec Ideal ⟨2, ![500000, 128]⟩ .f32 :=
  fun i => a.refOut (⟨(i 0).val, idx2_lt0 i⟩ : Fin 500000) (⟨(i 1).val, idx2_lt1 i⟩ : Fin 128)

/-- What the precondition gives: the entries that meet in the batch-norm rearrangement are real numbers, and the
    variance is not negative. -/
structure Finite : Prop where
  x_real : ∀ i, ∃ r : ℝ, a.x i = (r : EReal)
  W2_real : ∀ i, ∃ r : ℝ, a.W2 i = (r : EReal)
  b2_real : ∀ i, ∃ r : ℝ, a.b2 i = (r : EReal)
  gamma_real : ∀ i, ∃ r : ℝ, a.gamma i = (r : EReal)
  beta_real : ∀ i, ∃ r : ℝ, a.beta i = (r : EReal)
  mu_real : ∀ i, ∃ r : ℝ, a.mu i = (r : EReal)
  var_nonneg : ∀ i, ∃ r : ℝ, 0 ≤ r ∧ a.var i = (r : EReal)

end Args

/-- The ten arrays the kernel keeps resident: the inputs' weights re-laid as the kernel wants them. -/
structure Resident where
  W1 : FVec Ideal ⟨2, ![32, 128]⟩ .f32
  b1 : FVec Ideal ⟨2, ![1, 128]⟩ .f32
  W2row : FVec Ideal ⟨2, ![128, 128]⟩ .f32
  W2col : FVec Ideal ⟨2, ![128, 128]⟩ .f32
  W2e : FVec Ideal ⟨2, ![128, 128]⟩ .f32
  b2 : FVec Ideal ⟨2, ![1, 128]⟩ .f32
  scale : FVec Ideal ⟨2, ![1, 128]⟩ .f32
  shift : FVec Ideal ⟨2, ![1, 128]⟩ .f32
  W3 : FVec Ideal ⟨2, ![128, 128]⟩ .f32
  b3 : FVec Ideal ⟨2, ![1, 128]⟩ .f32

namespace Resident
variable (R : Resident)

/-- The kernel's first linear layer on one edge, from that edge's two gathered node rows `xr`, `xc` and its
    attribute row `at`: the three bands of `W2` contracted one by one. -/
def kLin (xr xc : Fin 128 → EReal) (attr : Fin 32 → EReal) (k : Fin 128) : EReal :=
  (((∑ i : Fin 128, xr i * R.W2row (ix2 i k)) + (∑ i : Fin 128, xc i * R.W2col (ix2 i k)))
    + (∑ i : Fin 128, Ideal.tanh ((∑ l : Fin 32, attr l * R.W1 (ix2 l i)) + R.b1 (ix2 (0 : Fin 1) i)) * R.W2e (ix2 i k)))
    + R.b2 (ix2 (0 : Fin 1) k)

/-- The kernel's hidden row: batch norm as one scale and one shift, then the rectifier. -/
def kHidden (xr xc : Fin 128 → EReal) (attr : Fin 32 → EReal) (k : Fin 128) : EReal :=
  max (R.kLin xr xc attr k * R.scale (ix2 (0 : Fin 1) k) + R.shift (ix2 (0 : Fin 1) k)) zeroF

/-- The kernel's result row. -/
def kOutRow (xr xc : Fin 128 → EReal) (attr : Fin 32 → EReal) (j : Fin 128) : EReal :=
  max ((∑ k : Fin 128, R.kHidden xr xc attr k * R.W3 (ix2 k j)) + R.b3 (ix2 (0 : Fin 1) j)) zeroF

/-- The resident arrays are the inputs' re-laid pieces. -/
structure Reads (a : Args) : Prop where
  W1 : R.W1 = a.W1
  b1 : ∀ i : Fin 128, R.b1 (ix2 (0 : Fin 1) i) = a.b1 (ix1 i)
  W2row : ∀ i k : Fin 128, R.W2row (ix2 i k) = a.W2 (ix2 (⟨i.val, by omega⟩ : Fin 384) k)
  W2col : ∀ i k : Fin 128, R.W2col (ix2 i k) = a.W2 (ix2 (⟨i.val + 128, by omega⟩ : Fin 384) k)
  W2e : ∀ i k : Fin 128, R.W2e (ix2 i k) = a.W2 (ix2 (⟨i.val + 256, by omega⟩ : Fin 384) k)
  b2 : ∀ k : Fin 128, R.b2 (ix2 (0 : Fin 1) k) = a.b2 (ix1 k)
  scale : ∀ k : Fin 128, R.scale (ix2 (0 : Fin 1) k) = a.bnScale k
  shift : ∀ k : Fin 128, R.shift (ix2 (0 : Fin 1) k) = a.beta (ix1 k) - a.mu (ix1 k) * a.bnScale k
  W3 : R.W3 = a.W3
  b3 : ∀ j : Fin 128, R.b3 (ix2 (0 : Fin 1) j) = a.b3 (ix1 j)

end Resident

/-- The kernel's output array over the padded 501760 rows, from the two gathered node arrays, the padded
    attributes and the resident arrays: row `E` is `kOutRow` of row `E` of each. -/
def kForm (Xr Xc : FVec Ideal ⟨2, ![501760, 128]⟩ .f32) (At : FVec Ideal ⟨2, ![501760, 32]⟩ .f32) (R : Resident) :
    FVec Ideal ⟨2, ![501760, 128]⟩ .f32 :=
  fun i => R.kOutRow (fun k => Xr (ix2 (⟨(i 0).val, idx2_lt0 i⟩ : Fin 501760) k))
    (fun k => Xc (ix2 (⟨(i 0).val, idx2_lt0 i⟩ : Fin 501760) k))
    (fun l => At (ix2 (⟨(i 0).val, idx2_lt0 i⟩ : Fin 501760) l)) (⟨(i 1).val, idx2_lt1 i⟩ : Fin 128)

end Cert.EdgeModel

end
-- ==== Proof.PreFacts.lean ====
/-
  What the precondition says of the inputs: every float entry is a real number, and the variance is not negative.

  Each conjunct "every entry of the array has absolute value below +∞" is read at one entry: an extended real with
  |v| < ⊤ is neither ⊥ nor ⊤ (both have absolute value ⊤), so it is a real number. The last conjunct, "every entry
  of the variance is at least zero", read at an entry and joined with that entry being real, gives a real r with 0 ≤ r.
-/
import proofs.«135754_j76768245449004_1_alg».proof.Proof.Spec
import proofs.«135754_j76768245449004_1_alg».proof.Pre_finite_inputs
import Idealize.ShloMosaic.Lib.ReduceAll
import Idealize.ShloMosaic.PureOps.Ideal.Laws

noncomputable section

namespace Cert.EdgeModel

open Idealize.ShloMosaic Idealize.ShloMosaic.ValueIdx

namespace PreFacts

/-- A scalar has one index. -/
instance subsingleton_scalar_idx : Subsingleton Cert.Pre_finite_inputs.S_.Idx :=
  ⟨fun a b => funext fun d => d.elim0⟩

/-- The single-precision word of +∞ is the top of the extended reals. -/
theorem ofBits_inf_f32 : Ideal.ofBits .f32 0x7F800000#32 = (⊤ : EReal) := by
  simp [Ideal.ofBits, Ideal.ieee]

/-- The strict comparison is 1 exactly when the order holds. -/
theorem cmp_olt_eq_one {a b : EReal} : Ideal.cmp .olt a b = 1#1 ↔ a < b := by
  unfold Ideal.cmp
  by_cases hlt : a < b <;> simp [hlt]

/-- The comparison "at least" is 1 exactly when the order holds. -/
theorem cmp_oge_eq_one {a b : EReal} : Ideal.cmp .oge a b = 1#1 ↔ b ≤ a := by
  unfold Ideal.cmp
  by_cases hle : b ≤ a <;> simp [hle]

/-- An extended real whose absolute value is below +∞ is a real number: both infinities have absolute value +∞. -/
theorem real_of_abs_lt_top (v : EReal) (h : max v (-v) < (⊤ : EReal)) : ∃ r : ℝ, v = (r : EReal) := by
  induction v using EReal.rec with
  | bot => simp at h
  | top => simp at h
  | coe r => exact ⟨r, rfl⟩

open Cert.Pre_finite_inputs in
/-- One conjunct "every entry has absolute value below +∞", read at an entry: that entry is a real number. -/
theorem real_of_all_finite {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant S_ .f32 0x7F800000#32))) init hr hu j = 1#1)
    (i : s.Idx) : ∃ r : ℝ, x i = (r : EReal) := by
  have h1 := Host.reduce_andi_all _ init hr hu j e i
  simp only [cmpf, Host.absf, broadcastInDim, constant] at h1
  have h2 : Ideal.cmp .olt (max (x i) (-(x i))) (Ideal.ofBits .f32 0x7F800000#32) = 1#1 := h1
  rw [ofBits_inf_f32, cmp_olt_eq_one] at h2
  exact real_of_abs_lt_top (x i) h2

open Cert.Pre_finite_inputs in
/-- The conjunct "every entry is at least zero", read at an entry. -/
theorem nonneg_of_all_ge {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .oge x (broadcastInDim s ![] hb (constant S_ .f32 0x00000000#32))) init hr hu j = 1#1)
    (i : s.Idx) : (0 : EReal) ≤ x i := by
  have h1 := Host.reduce_andi_all _ init hr hu j e i
  simp only [cmpf, broadcastInDim, constant] at h1
  have h2 : Ideal.cmp .oge (x i) (Ideal.ofBits .f32 0x00000000#32) = 1#1 := h1
  rw [Ideal.ofBits_zero_f32, cmp_oge_eq_one] at h2
  exact h2

end PreFacts

open Cert.Pre_finite_inputs in
/-- The printed precondition, all ones, gives the facts the batch-norm rearrangement uses. -/
theorem finite_of_pre [Cert.Pre_finite_inputs.Facts]
    (x0 : FVec Ideal S100000x128 .f32) (x1 : IVec S2x500000 32) (x2 : FVec Ideal S500000x32 .f32)
    (x3 : FVec Ideal S32x128 .f32) (x4 : FVec Ideal S128 .f32) (x5 : FVec Ideal S384x128 .f32)
    (x6 x7 x8 x9 x10 : FVec Ideal S128 .f32) (x11 : FVec Ideal S128x128 .f32) (x12 : FVec Ideal S128 .f32)
    (h : Cert.Pre_finite_inputs.fn (F := Ideal) x0 x1 x2 x3 x4 x5 x6 x7 x8 x9 x10 x11 x12 = fun _ => 1#1) :
    (Args.mk x0 x1 x2 x3 x4 x5 x6 x7 x8 x9 x10 x11 x12).Finite := by
  have h0 := congrFun h ValueIdx.ix0
  dsimp only [Cert.Pre_finite_inputs.fn, fn_part1, fn_part2, fn_part3] at h0
  simp only [andi, IntOp.andi_eq_one] at h0
  obtain ⟨⟨⟨⟨⟨⟨⟨⟨⟨⟨⟨⟨hx0, _hx2⟩, _hx3⟩, _hx4⟩, hx5⟩, hx6⟩, hx7⟩, hx8⟩, hx9⟩, hx10⟩, _hx11⟩, _hx12⟩, hge⟩ := h0
  refine ⟨?_, ?_, ?_, ?_, ?_, ?_, ?_⟩
  · exact fun i => PreFacts.real_of_all_finite x0 _ _ _ _ _ hx0 i
  · exact fun i => PreFacts.real_of_all_finite x5 _ _ _ _ _ hx5 i
  · exact fun i => PreFacts.real_of_all_finite x6 _ _ _ _ _ hx6 i
  · exact fun i => PreFacts.real_of_all_finite x7 _ _ _ _ _ hx7 i
  · exact fun i => PreFacts.real_of_all_finite x8 _ _ _ _ _ hx8 i
  · exact fun i => PreFacts.real_of_all_finite x9 _ _ _ _ _ hx9 i
  · intro i
    obtain ⟨r, hr⟩ := PreFacts.real_of_all_finite x10 _ _ _ _ _ hx10 i
    have hnn := PreFacts.nonneg_of_all_ge x10 _ _ _ _ _ hge i
    refine ⟨r, ?_, hr⟩
    rw [hr] at hnn
    exact_mod_cast hnn

end Cert.EdgeModel

end
-- ==== Proof.LibRowIndex.lean ====
/-
  Reading a row gather and a row scatter-add at an index.

  `x[idx]` over the rows of a matrix `x : [N, C]` at a column of row numbers `idx : [n, 1]` is the gather whose
  result row `i` is row `idx[i]` of `x`, the number read signed and clamped into `[0, N - 1]`.
  `segment_sum` of the rows of `upd : [n, C]` by the row numbers `idx : [n, 1]` into `x : [R, C]` is the
  scatter with an add body: at the ideal instance element `(r, c)` of the result is `x (r, c)` plus the sum over
  the update rows `i` whose number, read signed and NOT clamped, is `r`, of `upd (i, c)`; a row whose number is
  outside `[0, R)` contributes nowhere.
-/
import Idealize.ShloMosaic.PureOps.Ideal
import Idealize.ShloMosaic.Lib.ValueIdx

noncomputable section

namespace Idealize.ShloMosaic.RowIndex

open Idealize.ShloMosaic Idealize.ShloMosaic.ValueIdx

/-- The dimension numbers of a gather of whole rows: operand `[N, C]`, row numbers `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Result element `(i, j)` of a row gather is the operand at row `idx[i, 0]` (signed, clamped), column `j`. -/
theorem gather_rows_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (i : Fin n) (j : Fin C) :
    Host.gather (rowGatherDims N C n wf) x idx (ix2 i j)
      = x (ix2 (⟨min (idx (ix2 i (0 : Fin 1))).toInt.toNat (N - 1), by omega⟩ : Fin N) j) := by
  unfold Host.gather
  congr 1
  funext a
  refine Fin.ext ?_
  match a with
  | ⟨0, _⟩ =>
    -- the row axis is collapsed and named by the start index map: the clamped row number, no batch or offset part
    show (rowGatherDims N C n wf).start (ix2 i j) idx 0 + (rowGatherDims N C n wf).batchCoord (ix2 i j) 0
        + (rowGatherDims N C n wf).offCoord (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 i j) ⟨List.idxOf (0 : Fin 2) (rowGatherDims N C n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    -- the column axis is the one offset axis: the slice starts at 0 and the offset is the result's column
    show (rowGatherDims N C n wf).start (ix2 i j) idx 1 + (rowGatherDims N C n wf).batchCoord (ix2 i j) 1
        + (rowGatherDims N C n wf).offCoord (ix2 i j) 1 = j.val
    rw [GatherDims.batchCoord_eq_zero _ _ _ List.not_mem_nil]
    have hs : (rowGatherDims N C n wf).start (ix2 i j) idx 1 = 0 := by
      unfold GatherDims.start
      rw [dif_neg (show (1 : Fin 2) ∉ ([0] : List (Fin 2)) by decide)]
    have ho : (rowGatherDims N C n wf).offCoord (ix2 i j) 1 = j.val := by
      unfold GatherDims.offCoord
      rw [dif_pos ((GatherDims.mem_sKept _ _).2 ⟨show (1 : Fin 2) ∉ ([0] : List (Fin 2)) by decide, List.not_mem_nil⟩)]
      rfl
    rw [hs, ho]; omega

/-- The dimension numbers of a scatter of whole rows: operand `[R, C]`, row numbers `[n, 1]`, updates `[n, C]`. -/
abbrev rowScatterDims (R C n : Nat)
    (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

/-- On the row axis the window of update element `(i, c')` starts at row `i`'s number, read signed. -/
theorem start_rows_zero {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 0 = (idx (ix2 i (0 : Fin 1))).toInt := by
  unfold ScatterDims.start
  rw [dif_pos (show (0 : Fin 2) ∈ (rowScatterDims R C n wf).scatterDimsToOperandDims from List.mem_singleton.mpr rfl)]
  have hsi : (rowScatterDims R C n wf).siIdx (ix2 i c')
      ⟨List.idxOf (0 : Fin 2) (rowScatterDims R C n wf).scatterDimsToOperandDims,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]

/-- On the column axis, which the scatter indices do not name, the window starts at `0`. -/
theorem start_rows_one {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 1 = 0 := by
  unfold ScatterDims.start
  rw [dif_neg (show (1 : Fin 2) ∉ ([0] : List (Fin 2)) by decide)]

/-- The row axis is inserted: the window coordinate there is `0`. -/
theorem window_rows_zero {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 0 = 0 := by
  unfold ScatterDims.window
  have h : (0 : Fin 2) ∉ (rowScatterDims R C n wf).sKept := by
    show (0 : Fin 2) ∉ (List.finRange 2).filter (· ∉ ([0] : List (Fin 2)))
    decide
  rw [dif_neg h]

/-- The column axis is the one window axis: the window coordinate there is the update's column. -/
theorem window_rows_one {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 1 = c'.val := by
  unfold ScatterDims.window
  have h : (1 : Fin 2) ∈ (rowScatterDims R C n wf).sKept := by
    show (1 : Fin 2) ∈ (List.finRange 2).filter (· ∉ ([0] : List (Fin 2)))
    decide
  rw [dif_pos h]
  rfl

/-- Where update element `(i, c')` of a row scatter lands: at `(r, c)` exactly when row `i`'s number is `r` and
    `c' = c`. -/
theorem resultIdx_rows_iff {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) (r : Fin R) (c : Fin C) :
    (rowScatterDims R C n wf).resultIdx? (ix2 i c') idx = some (ix2 r c)
      ↔ (idx (ix2 i (0 : Fin 1))).toInt = (r.val : Int) ∧ c' = c := by
  have hs0 := start_rows_zero wf idx i c'
  have hs1 := start_rows_one wf idx i c'
  have hw0 := window_rows_zero wf i c'
  have hw1 := window_rows_one wf i c'
  have hr := r.isLt
  have hc := c.isLt
  have hc' := c'.isLt
  unfold ScatterDims.resultIdx?
  by_cases h : ∀ a : Fin 2, 0 ≤ (rowScatterDims R C n wf).start (ix2 i c') idx a + (rowScatterDims R C n wf).window (ix2 i c') a
      ∧ (rowScatterDims R C n wf).start (ix2 i c') idx a + (rowScatterDims R C n wf).window (ix2 i c') a
          < ((⟨2, ![R, C]⟩ : Shape).size a : Int)
  · -- the window is inside the operand: the landing index is (row number + 0, 0 + c')
    rw [dif_pos h, Option.some.injEq]
    have h0 := h 0
    have h1 := h 1
    rw [hs0, hw0] at h0
    rw [hs1, hw1] at h1
    constructor
    · intro hEq
      have e0 : ((rowScatterDims R C n wf).start (ix2 i c') idx 0 + (rowScatterDims R C n wf).window (ix2 i c') 0).toNat = r.val :=
        congrArg Fin.val (congrFun hEq 0)
      have e1 : ((rowScatterDims R C n wf).start (ix2 i c') idx 1 + (rowScatterDims R C n wf).window (ix2 i c') 1).toNat = c.val :=
        congrArg Fin.val (congrFun hEq 1)
      rw [hs0, hw0] at e0
      rw [hs1, hw1] at e1
      exact ⟨by omega, Fin.ext (by omega)⟩
    · rintro ⟨hrow, hcol⟩
      funext a
      refine Fin.ext ?_
      match a with
      | ⟨0, _⟩ =>
        show ((rowScatterDims R C n wf).start (ix2 i c') idx 0 + (rowScatterDims R C n wf).window (ix2 i c') 0).toNat = r.val
        rw [hs0, hw0]; omega
      | ⟨1, _⟩ =>
        show ((rowScatterDims R C n wf).start (ix2 i c') idx 1 + (rowScatterDims R C n wf).window (ix2 i c') 1).toNat = c.val
        rw [hs1, hw1, hcol]; omega
  · -- the window leaves the operand: the update is dropped, and a row number equal to some `r < R` would be inside
    rw [dif_neg h]
    constructor
    · intro hEq; cases hEq
    · rintro ⟨hrow, hcol⟩
      exfalso; apply h
      intro a
      match a with
      | ⟨0, _⟩ =>
        show 0 ≤ (rowScatterDims R C n wf).start (ix2 i c') idx 0 + (rowScatterDims R C n wf).window (ix2 i c') 0
          ∧ (rowScatterDims R C n wf).start (ix2 i c') idx 0 + (rowScatterDims R C n wf).window (ix2 i c') 0 < (R : Int)
        rw [hs0, hw0]; omega
      | ⟨1, _⟩ =>
        show 0 ≤ (rowScatterDims R C n wf).start (ix2 i c') idx 1 + (rowScatterDims R C n wf).window (ix2 i c') 1
          ∧ (rowScatterDims R C n wf).start (ix2 i c') idx 1 + (rowScatterDims R C n wf).window (ix2 i c') 1 < (C : Int)
        rw [hs1, hw1]; omega

/-- Element `(r, c)` of a row scatter-add at the ideal instance: the operand's element plus the updates of the rows
    numbered `r`. -/
theorem scatterAdd_rows_apply {R C n w : Nat}
    (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (c : Fin C) :
    Ideal.hostScatterAdd (rowScatterDims R C n wf) x idx upd (ix2 r c)
      = x (ix2 r c) + ∑ i : Fin n, if (idx (ix2 i (0 : Fin 1))).toInt = (r.val : Int) then upd (ix2 i c) else 0 := by
  unfold Ideal.hostScatterAdd
  show _ + _ = _ + _
  congr 1
  rw [Finset.sum_filter, sum_idx2]
  refine Finset.sum_congr rfl fun i _ => ?_
  -- row by row: a row numbered `r` contributes its column-`c` element alone, any other row nothing
  by_cases hrow : (idx (ix2 i (0 : Fin 1))).toInt = (r.val : Int)
  · rw [if_pos hrow, Finset.sum_eq_single c]
    · rw [if_pos ((resultIdx_rows_iff wf idx i c r c).2 ⟨hrow, rfl⟩)]
    · intro c' _ hne
      rw [if_neg fun h => hne ((resultIdx_rows_iff wf idx i c' r c).1 h).2]
    · intro h; exact absurd (Finset.mem_univ c) h
  · rw [if_neg hrow]
    refine Finset.sum_eq_zero fun c' _ => ?_
    rw [if_neg fun h => hrow ((resultIdx_rows_iff wf idx i c' r c).1 h).1]

end Idealize.ShloMosaic.RowIndex

end
-- ==== Proof.RefValue.lean ====
/-
  The reference program's result, stage by stage, is the specification `G` of its thirteen arguments.
-/
import proofs.«135754_j76768245449004_1_alg».proof.Proof.Spec
import proofs.«135754_j76768245449004_1_alg».proof.Proof.LibRowIndex
import proofs.«135754_j76768245449004_1_alg».proof.Proof.Gen.ReferenceIdeal.Read

noncomputable section

namespace Cert.EdgeModel.RefValue

open Idealize.ShloMosaic Idealize.ShloMosaic.ValueIdx Cert.ReferenceIdeal Cert.ReferenceIdeal.Read

/-- Two rank-1 indices with the same coordinate are the same index. -/
local macro "idx_one" : tactic =>
  `(tactic| exact funext fun a => Fin.ext (by match a with | ⟨0, _⟩ => rfl))
/-- Two rank-2 indices with the same two coordinates are the same index. -/
local macro "idx_two" : tactic =>
  `(tactic| exact funext fun a => Fin.ext (by match a with | ⟨0, _⟩ => rfl | ⟨1, _⟩ => rfl))

/-! ### The two end nodes

Row `r` of the edge list, entry `e`, is sliced out, flattened, and made non-negative by adding the table's height when
it is negative; the column of these words is what the gather reads its row numbers from. -/

/-- The word the first gather is fed for edge `e`: entry `e` of row 0, the table's height added when negative. -/
theorem rowWord_eq (x1 : (⟨S2x500000, .i32⟩ : BufTy).Contents (Elt Ideal)) (e : Fin 500000) :
    val_main_v14 (F := Ideal) x1 (ix2 e (0 : Fin 1))
      = Scalar.select (IntOp.cmpi .slt (x1 (ix2 (0 : Fin 2) e)) 0#32) (IntOp.addi (x1 (ix2 (0 : Fin 2) e)) 100000#32)
          (x1 (ix2 (0 : Fin 2) e)) := by
  have h6 : val_main_v6 (F := Ideal) x1 (ix1 e) = x1 (ix2 (0 : Fin 2) e) := by
    rw [val_main_v6_apply, val_main_v5_apply]
    refine congrArg x1 (funext fun a => Fin.ext ?_)
    match a with
    | ⟨0, _⟩ => rfl
    | ⟨1, _⟩ => exact Nat.mod_eq_of_lt e.isLt
  rw [val_main_v14_apply, show idx_main_v14 (ix2 e (0 : Fin 1)) = ix1 e from by idx_one,
    val_main_v13_apply, val_main_v10_apply, val_main_v12_apply, val_main_v9_apply, val_main_v11_apply,
    val_main_c_apply, val_main_c_0_apply, h6]

/-- The word the second gather is fed for edge `e`: entry `e` of row 1, the table's height added when negative. -/
theorem colWord_eq (x1 : (⟨S2x500000, .i32⟩ : BufTy).Contents (Elt Ideal)) (e : Fin 500000) :
    val_main_v21 (F := Ideal) x1 (ix2 e (0 : Fin 1))
      = Scalar.select (IntOp.cmpi .slt (x1 (ix2 (1 : Fin 2) e)) 0#32) (IntOp.addi (x1 (ix2 (1 : Fin 2) e)) 100000#32)
          (x1 (ix2 (1 : Fin 2) e)) := by
  have h8 : val_main_v8 (F := Ideal) x1 (ix1 e) = x1 (ix2 (1 : Fin 2) e) := by
    rw [val_main_v8_apply, val_main_v7_apply]
    refine congrArg x1 (funext fun a => Fin.ext ?_)
    match a with
    | ⟨0, _⟩ => rfl
    | ⟨1, _⟩ => exact Nat.mod_eq_of_lt e.isLt
  rw [val_main_v21_apply, show idx_main_v21 (ix2 e (0 : Fin 1)) = ix1 e from by idx_one,
    val_main_v20_apply, val_main_v17_apply, val_main_v19_apply, val_main_v16_apply, val_main_v18_apply,
    val_main_c_1_apply, val_main_c_2_apply, h8]

/-- The program's gather takes whole rows: one row number per result row, the row axis collapsed, the column axis the
    one offset axis. -/
theorem gatherDims_eq :
    gather_S100000x128_S500000x1_S500000x128_1_0_n_n_0_1_1128
      = RowIndex.rowGatherDims 100000 128 500000 Facts₀.gather_S100000x128_S500000x1_S500000x128_1_0_n_n_0_1_1128_wf := rfl

/-- Row `e` of the first gathered array is the table's row at edge `e`'s first end node. -/
theorem gatherRow_eq (x0 : (⟨S100000x128, .f32⟩ : BufTy).Contents (Elt Ideal))
    (x1 : (⟨S2x500000, .i32⟩ : BufTy).Contents (Elt Ideal)) (e : Fin 500000) (j : Fin 128) :
    val_main_v15 (F := Ideal) x0 x1 (ix2 e j) = x0 (ix2 (nodeOf (x1 (ix2 (0 : Fin 2) e))) j) := by
  unfold val_main_v15
  rw [gatherDims_eq]
  refine (RowIndex.gather_rows_apply (by decide) _ x0 (val_main_v14 (F := Ideal) x1) e j).trans ?_
  refine congrArg x0 (congrArg (fun r : Fin 100000 => ix2 r j) (Fin.ext ?_))
  show min (val_main_v14 (F := Ideal) x1 (ix2 e (0 : Fin 1))).toInt.toNat (100000 - 1) = (nodeOf (x1 (ix2 (0 : Fin 2) e))).val
  rw [rowWord_eq]
  rfl

/-- Row `e` of the second gathered array is the table's row at edge `e`'s second end node. -/
theorem gatherCol_eq (x0 : (⟨S100000x128, .f32⟩ : BufTy).Contents (Elt Ideal))
    (x1 : (⟨S2x500000, .i32⟩ : BufTy).Contents (Elt Ideal)) (e : Fin 500000) (j : Fin 128) :
    val_main_v22 (F := Ideal) x0 x1 (ix2 e j) = x0 (ix2 (nodeOf (x1 (ix2 (1 : Fin 2) e))) j) := by
  unfold val_main_v22
  rw [gatherDims_eq]
  refine (RowIndex.gather_rows_apply (by decide) _ x0 (val_main_v21 (F := Ideal) x1) e j).trans ?_
  refine congrArg x0 (congrArg (fun r : Fin 100000 => ix2 r j) (Fin.ext ?_))
  show min (val_main_v21 (F := Ideal) x1 (ix2 e (0 : Fin 1))).toInt.toNat (100000 - 1) = (nodeOf (x1 (ix2 (1 : Fin 2) e))).val
  rw [colWord_eq]
  rfl

/-! ### The joined row

Three arrays of 128 columns laid side by side: a column below 128 is read from the first, one below 256 from the
second 128 columns back, any other from the third 256 columns back. -/

/-- A three-piece join along the columns, read at row `e`, column `k`. -/
theorem join3_apply {α : Type} (y0 y1 y2 : S500000x128.Idx → α) (e : Fin 500000) (k : Fin 384) :
    concatenate S500000x384 1 [⟨S500000x128, y0⟩, ⟨S500000x128, y1⟩, ⟨S500000x128, y2⟩]
        Facts₀.concatenates_S500000x128_S500000x128_S500000x128_S500000x384_d1 (ix2 e k)
      = if h : k.val < 128 then y0 (ix2 e (⟨k.val, h⟩ : Fin 128))
        else if h' : k.val < 256 then y1 (ix2 e (⟨k.val - 128, by omega⟩ : Fin 128))
        else y2 (ix2 e (⟨k.val - 256, by omega⟩ : Fin 128)) := by
  have hk := k.isLt
  by_cases h : k.val < 128
  · rw [dif_pos h]
    refine concatenate_apply_piece 1 _ _ (ix2 e k) 0 (by show (0 : Nat) < 3; omega) S500000x128 y0 rfl rfl 0 rfl
      (ix2 e (⟨k.val, h⟩ : Fin 128)) (fun b hb => ?_) ?_
    · match b with
      | ⟨0, _⟩ => rfl
      | ⟨1, _⟩ => exact absurd rfl hb
    · show 0 + k.val = k.val
      omega
  · rw [dif_neg h]
    by_cases h' : k.val < 256
    · rw [dif_pos h']
      refine concatenate_apply_piece 1 _ _ (ix2 e k) 1 (by show (1 : Nat) < 3; omega) S500000x128 y1 rfl rfl 128 rfl
        (ix2 e (⟨k.val - 128, by omega⟩ : Fin 128)) (fun b hb => ?_) ?_
      · match b with
        | ⟨0, _⟩ => rfl
        | ⟨1, _⟩ => exact absurd rfl hb
      · show 128 + (k.val - 128) = k.val
        omega
    · rw [dif_neg h']
      refine concatenate_apply_piece 1 _ _ (ix2 e k) 2 (by show (2 : Nat) < 3; omega) S500000x128 y2 rfl rfl 256 rfl
        (ix2 e (⟨k.val - 256, by omega⟩ : Fin 128)) (fun b hb => ?_) ?_
      · match b with
        | ⟨0, _⟩ => rfl
        | ⟨1, _⟩ => exact absurd rfl hb
      · show 256 + (k.val - 256) = k.val
        omega

/-! ### The stages, read at edge `e` -/

/-- A 128-vector spread over every row, read at row `e`, column `j`, is its entry `j`: the first layer's bias. -/
theorem spread_b1 (x : (⟨S128, .f32⟩ : BufTy).Contents (Elt Ideal)) (e : Fin 500000) (j : Fin 128) :
    val_main_v2 (F := Ideal) x (ix2 e j) = x (ix1 j) := by
  rw [val_main_v2_apply, val_main_v1_apply]; exact congrArg x (by idx_one)

/-- The same for the second layer's bias. -/
theorem spread_b2 (x : (⟨S128, .f32⟩ : BufTy).Contents (Elt Ideal)) (e : Fin 500000) (j : Fin 128) :
    val_main_v26 (F := Ideal) x (ix2 e j) = x (ix1 j) := by
  rw [val_main_v26_apply, val_main_v25_apply]; exact congrArg x (by idx_one)

/-- The same for the batch-norm mean. -/
theorem spread_mu (x : (⟨S128, .f32⟩ : BufTy).Contents (Elt Ideal)) (e : Fin 500000) (j : Fin 128) :
    val_main_v29 (F := Ideal) x (ix2 e j) = x (ix1 j) := by
  rw [val_main_v29_apply, val_main_v28_apply]; exact congrArg x (by idx_one)

/-- The same for the batch-norm offset. -/
theorem spread_beta (x : (⟨S128, .f32⟩ : BufTy).Contents (Elt Ideal)) (e : Fin 500000) (j : Fin 128) :
    val_main_v39 (F := Ideal) x (ix2 e j) = x (ix1 j) := by
  rw [val_main_v39_apply, val_main_v38_apply]; exact congrArg x (by idx_one)

/-- The same for the last layer's bias. -/
theorem spread_b3 (x : (⟨S128, .f32⟩ : BufTy).Contents (Elt Ideal)) (e : Fin 500000) (j : Fin 128) :
    val_main_v44 (F := Ideal) x (ix2 e j) = x (ix1 j) := by
  rw [val_main_v44_apply, val_main_v43_apply]; exact congrArg x (by idx_one)

/-- The edge's feature row: `tanh (attr e · W1 + b1)`. -/
theorem feat_eq (a : Args) (e : Fin 500000) (i : Fin 128) :
    val_main_v4 (F := Ideal) a.ea a.W1 a.b1 (ix2 e i) = a.edgeFeat e i := by
  rw [val_main_v4_apply, val_main_v3_apply, val_main_v0_apply, spread_b1, Ideal.hostUnary_tanh_def, Ideal.addf_def]
  unfold Args.edgeFeat
  refine congrArg Ideal.tanh (congrArg (· + a.b1 (ix1 i)) (Finset.sum_congr rfl fun l _ => ?_))
  rw [show lidx_main_v0 (ix2 e i) l = ix2 e l from by idx_two, show ridx_main_v0 (ix2 e i) l = ix2 l i from by idx_two]

/-- The joined row `[x (row e), x (col e), feature e]`. -/
theorem cat_eq (a : Args) (e : Fin 500000) (k : Fin 384) :
    val_main_v23 (F := Ideal) a.x a.ei a.ea a.W1 a.b1 (ix2 e k) = a.catRow e k := by
  unfold val_main_v23
  rw [join3_apply]
  unfold Args.catRow
  by_cases h : k.val < 128
  · rw [dif_pos h, dif_pos h, gatherRow_eq]; rfl
  · rw [dif_neg h, dif_neg h]
    by_cases h' : k.val < 256
    · rw [dif_pos h', dif_pos h', gatherCol_eq]; rfl
    · rw [dif_neg h', dif_neg h', feat_eq]

/-- The first linear layer on the joined row. -/
theorem lin_eq (a : Args) (e : Fin 500000) (j : Fin 128) :
    val_main_v27 (F := Ideal) a.x a.ei a.ea a.W1 a.b1 a.W2 a.b2 (ix2 e j) = a.refLin e j := by
  rw [val_main_v27_apply, val_main_v24_apply, spread_b2, Ideal.addf_def]
  unfold Args.refLin
  refine congrArg (· + a.b2 (ix1 j)) (Finset.sum_congr rfl fun k _ => ?_)
  rw [show lidx_main_v24 (ix2 e j) k = ix2 e k from by idx_two, show ridx_main_v24 (ix2 e j) k = ix2 k j from by idx_two,
    cat_eq]

/-- The batch-norm scale `γ / √(var + ε)`, spread over every row. -/
theorem scale_eq (a : Args) (e : Fin 500000) (j : Fin 128) :
    val_main_v36 (F := Ideal) a.gamma a.var (ix2 e j) = a.bnScale j := by
  rw [val_main_v36_apply, val_main_v35_apply, show idx_main_v35 (idx_main_v36 (ix2 e j)) = ix1 j from by idx_one,
    val_main_v34_apply, val_main_v33_apply, val_main_v32_apply, val_main_v31_apply, val_main_cst_apply]
  rfl

/-- The hidden row: batch norm, then the rectifier. -/
theorem hidden_eq (a : Args) (e : Fin 500000) (j : Fin 128) :
    val_main_v41 (F := Ideal) a.x a.ei a.ea a.W1 a.b1 a.W2 a.b2 a.gamma a.beta a.mu a.var (ix2 e j) = a.refHidden e j := by
  rw [val_main_v41_apply, val_main_v40_apply, val_main_v37_apply, val_main_v30_apply, lin_eq, spread_mu, scale_eq,
    spread_beta, val_main_call0_v0_apply, val_main_call0_cst_apply]
  rfl

/-- The result row: the last linear layer, then the rectifier. -/
theorem out_eq (a : Args) (e : Fin 500000) (j : Fin 128) :
    val_main_v46 (F := Ideal) a.x a.ei a.ea a.W1 a.b1 a.W2 a.b2 a.gamma a.beta a.mu a.var a.W3 a.b3 (ix2 e j)
      = a.refOut e j := by
  rw [val_main_v46_apply, val_main_v45_apply, val_main_v42_apply, spread_b3, val_main_call1_v0_apply,
    val_main_call1_cst_apply, Ideal.maximumf_def, Ideal.addf_def, Ideal.ofBits_def]
  unfold Args.refOut
  refine congrArg (max · zeroF) (congrArg (· + a.b3 (ix1 j)) (Finset.sum_congr rfl fun k _ => ?_))
  rw [show lidx_main_v42 (ix2 e j) k = ix2 e k from by idx_two, show ridx_main_v42 (ix2 e j) k = ix2 k j from by idx_two,
    hidden_eq]

/-- The reference's last stage is `G`. -/
theorem reference_eq (x0 : (⟨S100000x128, .f32⟩ : BufTy).Contents (Elt Ideal)) (x1 : (⟨S2x500000, .i32⟩ : BufTy).Contents (Elt Ideal))
    (x2 : (⟨S500000x32, .f32⟩ : BufTy).Contents (Elt Ideal)) (x3 : (⟨S32x128, .f32⟩ : BufTy).Contents (Elt Ideal))
    (x4 : (⟨S128, .f32⟩ : BufTy).Contents (Elt Ideal)) (x5 : (⟨S384x128, .f32⟩ : BufTy).Contents (Elt Ideal))
    (x6 x7 x8 x9 x10 : (⟨S128, .f32⟩ : BufTy).Contents (Elt Ideal)) (x11 : (⟨S128x128, .f32⟩ : BufTy).Contents (Elt Ideal))
    (x12 : (⟨S128, .f32⟩ : BufTy).Contents (Elt Ideal)) :
    val_main_v46 (F := Ideal) x0 x1 x2 x3 x4 x5 x6 x7 x8 x9 x10 x11 x12
      = (Cert.EdgeModel.Args.mk x0 x1 x2 x3 x4 x5 x6 x7 x8 x9 x10 x11 x12).G := by
  funext i
  obtain ⟨e, j, rfl⟩ : ∃ (e : Fin 500000) (j : Fin 128), i = ix2 e j := ⟨i 0, i 1, eq_ix2 i⟩
  exact out_eq (Cert.EdgeModel.Args.mk x0 x1 x2 x3 x4 x5 x6 x7 x8 x9 x10 x11 x12) e j

end Cert.EdgeModel.RefValue

end
-- ==== Proof.Algebra.lean ====
/-
  The kernel's arrangement of one result row equals the reference's, when the quantities that meet in the batch-norm
  rearrangement are real numbers.

  The argument in four steps. (1) The kernel's first linear layer is the reference's: the sum over the 384 columns of
  the joined row is the sum of its three bands of 128, and on each band the joined row reads one of its three sources;
  this is only the regrouping of a finite sum. (2) That linear layer is a real number: a hyperbolic tangent is always
  real, so every entry of the joined row is, and a finite sum of products of reals plus a real is real. (3) The
  batch-norm scale is a real number: the variance is a nonnegative real and ε a positive one, so the square root is a
  positive real and the quotient by it is real. (4) On reals, (lin − μ)·s + β = lin·s + (β − μ·s); the rectifier and
  the second linear layer are then applied to equal rows.
-/
import proofs.«135754_j76768245449004_1_alg».proof.Proof.Spec
import Mathlib.Algebra.BigOperators.Fin

noncomputable section

namespace Cert.EdgeModel

open Idealize.ShloMosaic Idealize.ShloMosaic.ValueIdx

/-! ### Regrouping the sum over 384 columns -/

/-- A sum over 384 indices is the sum of its three bands of 128. -/
theorem sum_three_bands (f : Fin 384 → EReal) :
    ∑ k : Fin 384, f k
      = ((∑ i : Fin 128, f (⟨i.val, by omega⟩ : Fin 384)) + (∑ i : Fin 128, f (⟨i.val + 128, by omega⟩ : Fin 384)))
        + (∑ i : Fin 128, f (⟨i.val + 256, by omega⟩ : Fin 384)) := by
  refine (Fin.sum_univ_add (M := EReal) (a := 256) (b := 128) f).trans ?_
  refine congrArg₂ (· + ·) ?_ ?_
  · refine (Fin.sum_univ_add (M := EReal) (a := 128) (b := 128) (fun i => f (Fin.castAdd 128 i))).trans ?_
    refine congrArg₂ (· + ·) ?_ ?_
    · exact Finset.sum_congr rfl fun i _ => congrArg f (Fin.ext rfl)
    · exact Finset.sum_congr rfl fun i _ => congrArg f (Fin.ext (Nat.add_comm _ _))
  · exact Finset.sum_congr rfl fun i _ => congrArg f (Fin.ext (Nat.add_comm _ _))

/-! ### Real-valued extended reals -/

theorem real_add {x y : EReal} (hx : ∃ r : ℝ, x = (r : EReal)) (hy : ∃ r : ℝ, y = (r : EReal)) :
    ∃ r : ℝ, x + y = (r : EReal) := by
  obtain ⟨p, rfl⟩ := hx
  obtain ⟨q, rfl⟩ := hy
  exact ⟨p + q, (EReal.coe_add p q).symm⟩

theorem real_mul {x y : EReal} (hx : ∃ r : ℝ, x = (r : EReal)) (hy : ∃ r : ℝ, y = (r : EReal)) :
    ∃ r : ℝ, x * y = (r : EReal) := by
  obtain ⟨p, rfl⟩ := hx
  obtain ⟨q, rfl⟩ := hy
  exact ⟨p * q, (EReal.coe_mul p q).symm⟩

/-- A finite sum of reals is a real. -/
theorem real_sum {ι : Type} (s : Finset ι) (f : ι → EReal) (h : ∀ i ∈ s, ∃ r : ℝ, f i = (r : EReal)) :
    ∃ r : ℝ, ∑ i ∈ s, f i = (r : EReal) :=
  Finset.sum_induction f (fun x => ∃ r : ℝ, x = (r : EReal)) (fun _ _ hx hy => real_add hx hy)
    ⟨0, EReal.coe_zero.symm⟩ h

/-- The hyperbolic tangent of any extended real is a real: its limits at the two infinities are −1 and 1. -/
theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-! ### The constant ε -/

/-- The batch-norm ε is a positive real. -/
theorem epsF_pos : ∃ ε : ℝ, 0 < ε ∧ epsF = (ε : EReal) := by
  refine ⟨(10995116 : ℝ) * (2 : ℝ) ^ (-40 : ℤ), by positivity, ?_⟩
  simp [epsF, Ideal.ofBits, Ideal.ieee, -EReal.coe_mul]

/-! ### The first linear layer -/

/-- The kernel's first linear layer, band by band, is the reference's on the joined row. -/
theorem kLin_eq_refLin (a : Args) (R : Resident) (hR : R.Reads a) (e : Fin 500000) (k : Fin 128) :
    R.kLin (fun i => a.x (ix2 (a.rowNode e) i)) (fun i => a.x (ix2 (a.colNode e) i)) (fun l => a.ea (ix2 e l)) k
      = a.refLin e k := by
  unfold Resident.kLin Args.refLin
  rw [sum_three_bands, hR.b2 k, hR.W1]
  refine congrArg (· + a.b2 (ix1 k)) ?_
  refine congrArg₂ (· + ·) (congrArg₂ (· + ·) ?_ ?_) ?_
  · -- columns 0–127 read the row node's entries
    refine Finset.sum_congr rfl fun i _ => ?_
    rw [hR.W2row i k]
    refine congrArg (· * a.W2 (ix2 (⟨i.val, by omega⟩ : Fin 384) k)) ?_
    unfold Args.catRow
    rw [dif_pos (show ((⟨i.val, by omega⟩ : Fin 384)).val < 128 from i.isLt)]
  · -- columns 128–255 read the column node's entries
    refine Finset.sum_congr rfl fun i _ => ?_
    rw [hR.W2col i k]
    refine congrArg (· * a.W2 (ix2 (⟨i.val + 128, by omega⟩ : Fin 384) k)) ?_
    unfold Args.catRow
    rw [dif_neg (show ¬ ((⟨i.val + 128, by omega⟩ : Fin 384)).val < 128 from Nat.not_lt.mpr (Nat.le_add_left _ _)),
      dif_pos (show ((⟨i.val + 128, by omega⟩ : Fin 384)).val < 256 from by have := i.isLt; show i.val + 128 < 256; omega)]
    exact congrArg (fun t => a.x (ix2 (a.colNode e) t)) (Fin.ext (Nat.add_sub_cancel i.val 128).symm)
  · -- columns 256–383 read the edge's feature row
    refine Finset.sum_congr rfl fun i _ => ?_
    rw [hR.W2e i k, hR.b1 i]
    refine congrArg (· * a.W2 (ix2 (⟨i.val + 256, by omega⟩ : Fin 384) k)) ?_
    unfold Args.catRow
    rw [dif_neg (show ¬ ((⟨i.val + 256, by omega⟩ : Fin 384)).val < 128 from by show ¬ i.val + 256 < 128; omega),
      dif_neg (show ¬ ((⟨i.val + 256, by omega⟩ : Fin 384)).val < 256 from Nat.not_lt.mpr (Nat.le_add_left _ _))]
    exact congrArg (fun t => a.edgeFeat e t) (Fin.ext (Nat.add_sub_cancel i.val 256).symm)

/-! ### The quantities of the batch norm are real -/

/-- Every entry of the joined row is a real. -/
theorem catRow_real (a : Args) (hF : a.Finite) (e : Fin 500000) (k : Fin 384) : ∃ r : ℝ, a.catRow e k = (r : EReal) := by
  unfold Args.catRow
  split_ifs
  · exact hF.x_real _
  · exact hF.x_real _
  · exact tanh_real _

/-- The first linear layer is a real. -/
theorem refLin_real (a : Args) (hF : a.Finite) (e : Fin 500000) (j : Fin 128) : ∃ r : ℝ, a.refLin e j = (r : EReal) :=
  real_add (real_sum _ _ fun k _ => real_mul (catRow_real a hF e k) (hF.W2_real _)) (hF.b2_real _)

/-- The batch-norm scale is a real: the variance plus ε is a positive real, so its root is a positive real. -/
theorem bnScale_real (a : Args) (hF : a.Finite) (j : Fin 128) : ∃ r : ℝ, a.bnScale j = (r : EReal) := by
  obtain ⟨v, hv0, hv⟩ := hF.var_nonneg (ix1 j)
  obtain ⟨g, hg⟩ := hF.gamma_real (ix1 j)
  obtain ⟨ε, hε0, hε⟩ := epsF_pos
  have hpos : 0 < v + ε := by linarith
  have hs : 0 < Real.sqrt (v + ε) := Real.sqrt_pos.mpr hpos
  refine ⟨g * (1 / Real.sqrt (v + ε)), ?_⟩
  rw [Args.bnScale, hv, hg, hε, ← EReal.coe_add, Ideal.sqrt_coe, if_neg (not_lt.mpr hpos.le), Ideal.div_coe hs.ne',
    ← EReal.coe_mul]

/-- Folding the batch norm into a scale and a shift, on reals. -/
theorem bn_law (L m S B : ℝ) :
    ((L : EReal) - (m : EReal)) * (S : EReal) + (B : EReal)
      = (L : EReal) * (S : EReal) + ((B : EReal) - (m : EReal) * (S : EReal)) := by
  rw [← EReal.coe_sub, ← EReal.coe_mul, ← EReal.coe_add, ← EReal.coe_mul, ← EReal.coe_mul, ← EReal.coe_sub, ← EReal.coe_add]
  exact congrArg _ (by ring)

/-! ### The result row -/

/-- One result row, kernel's arrangement against the reference's. -/
theorem kOutRow_eq_refOut (a : Args) (hF : a.Finite) (R : Resident) (hR : R.Reads a) (e : Fin 500000) (j : Fin 128) :
    R.kOutRow (fun i => a.x (ix2 (a.rowNode e) i)) (fun i => a.x (ix2 (a.colNode e) i)) (fun l => a.ea (ix2 e l)) j
      = a.refOut e j := by
  unfold Resident.kOutRow Args.refOut
  rw [hR.W3, hR.b3 j]
  refine congrArg (fun t => max (t + a.b3 (ix1 j)) zeroF) ?_
  refine Finset.sum_congr rfl fun k _ => congrArg (· * a.W3 (ix2 k j)) ?_
  unfold Resident.kHidden Args.refHidden
  rw [kLin_eq_refLin a R hR e k, hR.scale k, hR.shift k]
  obtain ⟨L, hL⟩ := refLin_real a hF e k
  obtain ⟨S, hS⟩ := bnScale_real a hF k
  obtain ⟨m, hm⟩ := hF.mu_real (ix1 k)
  obtain ⟨B, hB⟩ := hF.beta_real (ix1 k)
  rw [hL, hS, hm, hB, bn_law]

end Cert.EdgeModel

end
-- ==== Proof.HostPrefix.lean ====
/-
  The arrays the kernel's region finds, read at an index as functions of the thirteen inputs: the two gathered
  node arrays and the padded attributes row by row, and the ten resident arrays as the inputs' re-laid pieces.
-/
import proofs.«135754_j76768245449004_1_alg».proof.Proof.Spec
import proofs.«135754_j76768245449004_1_alg».proof.Proof.LibRowIndex
import proofs.«135754_j76768245449004_1_alg».proof.Proof.Gen.KernelIdeal.Frame
import Idealize.ShloMosaic.Lib.KernelVsHost
import Idealize.ShloMosaic.Lib.Pipeline.Value
import Idealize.ShloMosaic.Lib.StableHlo.Run
import Idealize.ShloMosaic.Lib.ValueLayout

noncomputable section

namespace Cert.KernelIdeal.Entry

open Idealize.ShloMosaic Idealize.ShloMosaic.TcCoe Idealize.ShloMosaic.ValueIdx Idealize.SL.Sem
open Cert.KernelIdeal Cert.KernelIdeal.Gen Cert.EdgeModel

variable (m : (ℓ : Loc nD τ sig) → Buf (Elt Ideal) ℓ)

/-- The thirteen inputs as launched on core `c`. -/
def argsOf (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11),
   m ((c : Thread nD τ).loc main_arg12)⟩

/-- The two gathered node arrays and the padded attributes, as the region finds them. -/
def rowsOf (c : Dev nD) : FVec Ideal ⟨2, ![501760, 128]⟩ .f32 := V m c main_v13
def colsOf (c : Dev nD) : FVec Ideal ⟨2, ![501760, 128]⟩ .f32 := V m c main_v20
def attrOf (c : Dev nD) : FVec Ideal ⟨2, ![501760, 32]⟩ .f32 := V m c main_v6

/-- The ten resident arrays, as the region finds them. -/
def residentOf (c : Dev nD) : Resident :=
  ⟨V m c main_arg3, V m c main_v30, V m c main_v21, V m c main_v22, V m c main_v23, V m c main_v31,
   V m c main_v33, V m c main_v34, V m c main_arg11, V m c main_v32⟩

/-! ## The host operations before the region, as terms of the inputs -/

/-- A row of the two-row array of end nodes, cut out and flattened to a vector. -/
def eiRow (ei : IVec S2x500000 32) (off : Fin 2 → Nat) (h : S2x500000.Slices off S1x500000) : IVec S500000 32 :=
  shapeCast S500000 (extractStridedSlice S1x500000 off ei h) shapeCasts_S1x500000_S500000

/-- A vector of row numbers padded with 1760 zeros. -/
def padIdx (v : IVec S500000 32) : IVec S501760 32 :=
  pad S501760 ![0] ![1760] ![0] v (constantI S_ 32 0#32) pads_S500000_S501760_017600 h_S_

/-- The column of row numbers a gather takes: a negative number is counted from the end of the table. -/
def idxCol (v : IVec S501760 32) : IVec S501760x1 32 :=
  broadcastInDim S501760x1 ![0] bcast_S501760_S501760x1_0
    (select (cmpi .slt v (broadcastInDim S501760 ![] bcast_S_S501760 (constantI S_ 32 0#32)))
      (addi v (broadcastInDim S501760 ![] bcast_S_S501760 (constantI S_ 32 100000#32))) v)

/-- The batch-norm scale as the host operations compute it: `γ / √(var + ε)`, entry by entry. -/
def scaleVec (gamma var : FVec Ideal S128 .f32) : FVec Ideal S128 .f32 :=
  Host.divf gamma (Host.sqrt (addf var (broadcastInDim S128 ![] bcast_S_S128 (constant (F := Ideal) S_ .f32 0x3727C5AC#32))))

/-- The first gathered array: the gather of `x` by the column made from row 0 of the end nodes. -/
theorem rows_term (c : Dev nD) :
    (V m c main_v13 : FVec Ideal ⟨2, ![501760, 128]⟩ .f32)
      = Host.gather gather_S100000x128_S501760x1_S501760x128_1_0_n_n_0_1_1128 (m ((c : Thread nD τ).loc main_arg0))
          (idxCol (padIdx (eiRow (m ((c : Thread nD τ).loc main_arg1)) ![0, 0] slices_S2x500000_S1x500000_0_0))) := by
  dsimp only [V, V0]
  simp only [hostOps0, hostOps0_1, hostOps0_2, hostOps0_3, hostOps0_4, hostOps0_5, hostOps0_6, List.flatten_cons, List.flatten_nil, List.append_nil,
    List.cons_append, List.nil_append]
  after_results_simp
  all_goals rfl

/-- The second gathered array: the gather of `x` by the column made from row 1 of the end nodes. -/
theorem cols_term (c : Dev nD) :
    (V m c main_v20 : FVec Ideal ⟨2, ![501760, 128]⟩ .f32)
      = Host.gather gather_S100000x128_S501760x1_S501760x128_1_0_n_n_0_1_1128 (m ((c : Thread nD τ).loc main_arg0))
          (idxCol (padIdx (eiRow (m ((c : Thread nD τ).loc main_arg1)) ![1, 0] slices_S2x500000_S1x500000_1_0))) := by
  dsimp only [V, V0]
  simp only [hostOps0, hostOps0_1, hostOps0_2, hostOps0_3, hostOps0_4, hostOps0_5, hostOps0_6, List.flatten_cons, List.flatten_nil, List.append_nil,
    List.cons_append, List.nil_append]
  after_results_simp
  all_goals rfl

/-- The padded attributes: the attributes with 1760 rows of the padding value below them. -/
theorem attr_term (c : Dev nD) :
    (V m c main_v6 : FVec Ideal ⟨2, ![501760, 32]⟩ .f32)
      = pad S501760x32 ![0, 0] ![1760, 0] ![0, 0] (m ((c : Thread nD τ).loc main_arg2))
          (sitofp (F := Ideal) .f32 (constantI S_ 32 0#32)) pads_S500000x32_S501760x32_017600_000 h_S_ := by
  dsimp only [V, V0]
  simp only [hostOps0, hostOps0_1, hostOps0_2, hostOps0_3, hostOps0_4, hostOps0_5, hostOps0_6, List.flatten_cons, List.flatten_nil, List.append_nil,
    List.cons_append, List.nil_append]
  after_results_simp
  all_goals rfl

/-- The first bias as a one-row matrix. -/
theorem b1_term (c : Dev nD) :
    (V m c main_v30 : FVec Ideal ⟨2, ![1, 128]⟩ .f32)
      = shapeCast S1x128 (m ((c : Thread nD τ).loc main_arg4)) shapeCasts_S128_S1x128 := by
  dsimp only [V, V0]
  simp only [hostOps0, hostOps0_1, hostOps0_2, hostOps0_3, hostOps0_4, hostOps0_5, hostOps0_6, List.flatten_cons, List.flatten_nil, List.append_nil,
    List.cons_append, List.nil_append]
  after_results_simp
  all_goals rfl

/-- The second bias as a one-row matrix. -/
theorem b2_term (c : Dev nD) :
    (V m c main_v31 : FVec Ideal ⟨2, ![1, 128]⟩ .f32)
      = shapeCast S1x128 (m ((c : Thread nD τ).loc main_arg6)) shapeCasts_S128_S1x128 := by
  dsimp only [V, V0]
  simp only [hostOps0, hostOps0_1, hostOps0_2, hostOps0_3, hostOps0_4, hostOps0_5, hostOps0_6, List.flatten_cons, List.flatten_nil, List.append_nil,
    List.cons_append, List.nil_append]
  after_results_simp
  all_goals rfl

/-- The third bias as a one-row matrix. -/
theorem b3_term (c : Dev nD) :
    (V m c main_v32 : FVec Ideal ⟨2, ![1, 128]⟩ .f32)
      = shapeCast S1x128 (m ((c : Thread nD τ).loc main_arg12)) shapeCasts_S128_S1x128 := by
  dsimp only [V, V0]
  simp only [hostOps0, hostOps0_1, hostOps0_2, hostOps0_3, hostOps0_4, hostOps0_5, hostOps0_6, List.flatten_cons, List.flatten_nil, List.append_nil,
    List.cons_append, List.nil_append]
  after_results_simp
  all_goals rfl

/-- Rows 0 to 127 of the second weight. -/
theorem W2row_term (c : Dev nD) :
    (V m c main_v21 : FVec Ideal ⟨2, ![128, 128]⟩ .f32)
      = extractStridedSlice S128x128 ![0, 0] (m ((c : Thread nD τ).loc main_arg5)) slices_S384x128_S128x128_0_0 := by
  dsimp only [V, V0]
  simp only [hostOps0, hostOps0_1, hostOps0_2, hostOps0_3, hostOps0_4, hostOps0_5, hostOps0_6, List.flatten_cons, List.flatten_nil, List.append_nil,
    List.cons_append, List.nil_append]
  after_results_simp
  all_goals rfl

/-- Rows 128 to 255 of the second weight. -/
theorem W2col_term (c : Dev nD) :
    (V m c main_v22 : FVec Ideal ⟨2, ![128, 128]⟩ .f32)
      = extractStridedSlice S128x128 ![128, 0] (m ((c : Thread nD τ).loc main_arg5)) slices_S384x128_S128x128_128_0 := by
  dsimp only [V, V0]
  simp only [hostOps0, hostOps0_1, hostOps0_2, hostOps0_3, hostOps0_4, hostOps0_5, hostOps0_6, List.flatten_cons, List.flatten_nil, List.append_nil,
    List.cons_append, List.nil_append]
  after_results_simp
  all_goals rfl

/-- Rows 256 to 383 of the second weight. -/
theorem W2e_term (c : Dev nD) :
    (V m c main_v23 : FVec Ideal ⟨2, ![128, 128]⟩ .f32)
      = extractStridedSlice S128x128 ![256, 0] (m ((c : Thread nD τ).loc main_arg5)) slices_S384x128_S128x128_256_0 := by
  dsimp only [V, V0]
  simp only [hostOps0, hostOps0_1, hostOps0_2, hostOps0_3, hostOps0_4, hostOps0_5, hostOps0_6, List.flatten_cons, List.flatten_nil, List.append_nil,
    List.cons_append, List.nil_append]
  after_results_simp
  all_goals rfl

/-- The batch-norm scale as a one-row matrix. -/
theorem scale_term (c : Dev nD) :
    (V m c main_v33 : FVec Ideal ⟨2, ![1, 128]⟩ .f32)
      = shapeCast S1x128 (scaleVec (m ((c : Thread nD τ).loc main_arg7)) (m ((c : Thread nD τ).loc main_arg10))) shapeCasts_S128_S1x128 := by
  dsimp only [V, V0]
  simp only [hostOps0, hostOps0_1, hostOps0_2, hostOps0_3, hostOps0_4, hostOps0_5, hostOps0_6, List.flatten_cons, List.flatten_nil, List.append_nil,
    List.cons_append, List.nil_append]
  after_results_simp
  all_goals rfl

/-- The batch-norm shift `β − μ · scale` as a one-row matrix. -/
theorem shift_term (c : Dev nD) :
    (V m c main_v34 : FVec Ideal ⟨2, ![1, 128]⟩ .f32)
      = shapeCast S1x128 (subf (m ((c : Thread nD τ).loc main_arg8)) (mulf (m ((c : Thread nD τ).loc main_arg9)) (scaleVec (m ((c : Thread nD τ).loc main_arg7)) (m ((c : Thread nD τ).loc main_arg10))))) shapeCasts_S128_S1x128 := by
  dsimp only [V, V0]
  simp only [hostOps0, hostOps0_1, hostOps0_2, hostOps0_3, hostOps0_4, hostOps0_5, hostOps0_6, List.flatten_cons, List.flatten_nil, List.append_nil,
    List.cons_append, List.nil_append]
  after_results_simp
  all_goals rfl

/-! ## The terms read at an index -/

/-- The gather's dimension numbers are a row gather's. -/
theorem gather_eq : gather_S100000x128_S501760x1_S501760x128_1_0_n_n_0_1_1128
    = RowIndex.rowGatherDims 100000 128 501760 gather_S100000x128_S501760x1_S501760x128_1_0_n_n_0_1_1128_wf := rfl

/-- Entry `e` of the flattened row `r` of the end-node array. -/
theorem eiRow_apply (ei : IVec S2x500000 32) (o : Nat) (h : S2x500000.Slices ![o, 0] S1x500000) (r : Fin 2)
    (hr : r.val = o + (0 : Fin 1).val) (e : Fin 500000) :
    eiRow ei ![o, 0] h (ix1 e) = ei (ix2 r e) := by
  unfold eiRow
  refine (shapeCast_1a_a_apply _ _ e).trans ?_
  exact slice2_axis0_apply o ei h (0 : Fin 1) e r hr

/-- Inside its first 500000 entries the padded vector is the vector. -/
theorem padIdx_apply (v : IVec S500000 32) (e : Fin 500000) : padIdx v (ix1 (padRow e)) = v (ix1 e) := by
  unfold padIdx
  refine pad_apply_of_inside _ _ _ _ _ _ _ (ix1 (padRow e)) (ix1 e) (fun a => ?_)
  match a with
  | ⟨0, _⟩ => show e.val = 0 + e.val * (0 + 1); omega

/-- Row `E` of the column of row numbers: the number, counted from the end of the table when negative. -/
theorem idxCol_apply (v : IVec S501760 32) (E : Fin 501760) :
    idxCol v (ix2 E (0 : Fin 1))
      = Scalar.select (IntOp.cmpi .slt (v (ix1 E)) 0#32) (IntOp.addi (v (ix1 E)) 100000#32) (v (ix1 E)) := by
  unfold idxCol
  refine (broadcastInDim_apply _ _ _ (ix2 E (0 : Fin 1)) (ix1 E) (fun a => ?_)).trans ?_
  · match a with
    | ⟨0, _⟩ => rfl
  · rfl

/-- Row `e` of the gather by the column made from row `r` of the end nodes is the row of `x` that the number names. -/
theorem gathered_apply (x : FVec Ideal S100000x128 .f32) (ei : IVec S2x500000 32) (o : Nat)
    (h : S2x500000.Slices ![o, 0] S1x500000) (r : Fin 2) (hr : r.val = o + (0 : Fin 1).val) (e : Fin 500000) (i : Fin 128) :
    Host.gather gather_S100000x128_S501760x1_S501760x128_1_0_n_n_0_1_1128 x (idxCol (padIdx (eiRow ei ![o, 0] h))) (ix2 (padRow e) i)
      = x (ix2 (nodeOf (ei (ix2 r e))) i) := by
  rw [gather_eq]
  refine (RowIndex.gather_rows_apply (by omega) _ x _ (padRow e) i).trans ?_
  refine congrArg (fun n : Fin 100000 => x (ix2 n i)) (Fin.ext ?_)
  show min (idxCol (padIdx (eiRow ei ![o, 0] h)) (ix2 (padRow e) (0 : Fin 1))).toInt.toNat (100000 - 1) = (nodeOf (ei (ix2 r e))).val
  rw [idxCol_apply, padIdx_apply, eiRow_apply ei o h r hr e]
  rfl

/-- Entry `k` of the scale vector is the specification's scale. -/
theorem scaleVec_apply (gamma var : FVec Ideal S128 .f32) (k : Fin 128) :
    scaleVec gamma var (ix1 k) = Ideal.div (gamma (ix1 k)) (Ideal.sqrt (var (ix1 k) + epsF)) := rfl

/-! ## The arrays the region finds -/

/-- Row `e` of the first gathered array is the row of `x` that edge `e`'s first end names. -/
theorem rows_read (c : Dev nD) (e : Fin 500000) (i : Fin 128) :
    rowsOf m c (ix2 (padRow e) i) = (argsOf m c).x (ix2 ((argsOf m c).rowNode e) i) := by
  unfold rowsOf
  rw [rows_term]
  exact gathered_apply _ _ 0 _ (0 : Fin 2) rfl e i

/-- Row `e` of the second gathered array is the row of `x` that edge `e`'s second end names. -/
theorem cols_read (c : Dev nD) (e : Fin 500000) (i : Fin 128) :
    colsOf m c (ix2 (padRow e) i) = (argsOf m c).x (ix2 ((argsOf m c).colNode e) i) := by
  unfold colsOf
  rw [cols_term]
  exact gathered_apply _ _ 1 _ (1 : Fin 2) rfl e i

/-- Row `e` of the padded attributes is edge `e`'s attribute row. -/
theorem attr_read (c : Dev nD) (e : Fin 500000) (l : Fin 32) :
    attrOf m c (ix2 (padRow e) l) = (argsOf m c).ea (ix2 e l) := by
  unfold attrOf
  rw [attr_term]
  refine (pad_apply_of_inside _ _ _ _ _ _ _ (ix2 (padRow e) l) (ix2 e l) (fun a => ?_)).trans rfl
  match a with
  | ⟨0, _⟩ => show e.val = 0 + e.val * (0 + 1); omega
  | ⟨1, _⟩ => show l.val = 0 + l.val * (0 + 1); omega

/-- The first bias, entry by entry. -/
theorem b1_read (c : Dev nD) (i : Fin 128) :
    (residentOf m c).b1 (ix2 (0 : Fin 1) i) = (argsOf m c).b1 (ix1 i) :=
  (congrFun (b1_term m c) (ix2 (0 : Fin 1) i)).trans (shapeCast_a_1a_apply _ _ _ i)

/-- The second bias, entry by entry. -/
theorem b2_read (c : Dev nD) (k : Fin 128) :
    (residentOf m c).b2 (ix2 (0 : Fin 1) k) = (argsOf m c).b2 (ix1 k) :=
  (congrFun (b2_term m c) (ix2 (0 : Fin 1) k)).trans (shapeCast_a_1a_apply _ _ _ k)

/-- The third bias, entry by entry. -/
theorem b3_read (c : Dev nD) (j : Fin 128) :
    (residentOf m c).b3 (ix2 (0 : Fin 1) j) = (argsOf m c).b3 (ix1 j) :=
  (congrFun (b3_term m c) (ix2 (0 : Fin 1) j)).trans (shapeCast_a_1a_apply _ _ _ j)

/-- The first band of the second weight, entry by entry. -/
theorem W2row_read (c : Dev nD) (i k : Fin 128) :
    (residentOf m c).W2row (ix2 i k) = (argsOf m c).W2 (ix2 (⟨i.val, by omega⟩ : Fin 384) k) :=
  (congrFun (W2row_term m c) (ix2 i k)).trans
    (slice2_axis0_apply 0 _ _ i k _ (by show i.val = 0 + i.val; omega))

/-- The second band of the second weight, entry by entry. -/
theorem W2col_read (c : Dev nD) (i k : Fin 128) :
    (residentOf m c).W2col (ix2 i k) = (argsOf m c).W2 (ix2 (⟨i.val + 128, by omega⟩ : Fin 384) k) :=
  (congrFun (W2col_term m c) (ix2 i k)).trans
    (slice2_axis0_apply 128 _ _ i k _ (by show i.val + 128 = 128 + i.val; omega))

/-- The third band of the second weight, entry by entry. -/
theorem W2e_read (c : Dev nD) (i k : Fin 128) :
    (residentOf m c).W2e (ix2 i k) = (argsOf m c).W2 (ix2 (⟨i.val + 256, by omega⟩ : Fin 384) k) :=
  (congrFun (W2e_term m c) (ix2 i k)).trans
    (slice2_axis0_apply 256 _ _ i k _ (by show i.val + 256 = 256 + i.val; omega))

/-- The scale, entry by entry. -/
theorem scale_read (c : Dev nD) (k : Fin 128) :
    (residentOf m c).scale (ix2 (0 : Fin 1) k) = (argsOf m c).bnScale k :=
  (congrFun (scale_term m c) (ix2 (0 : Fin 1) k)).trans
    ((shapeCast_a_1a_apply _ _ _ k).trans (scaleVec_apply _ _ k))

/-- The shift, entry by entry. -/
theorem shift_read (c : Dev nD) (k : Fin 128) :
    (residentOf m c).shift (ix2 (0 : Fin 1) k)
      = (argsOf m c).beta (ix1 k) - (argsOf m c).mu (ix1 k) * (argsOf m c).bnScale k :=
  (congrFun (shift_term m c) (ix2 (0 : Fin 1) k)).trans
    ((shapeCast_a_1a_apply _ _ _ k).trans
      (congrArg (fun s : EReal => (argsOf m c).beta (ix1 k) - (argsOf m c).mu (ix1 k) * s) (scaleVec_apply _ _ k)))

/-- The resident arrays are the inputs' re-laid pieces. -/
theorem resident_reads (c : Dev nD) : (residentOf m c).Reads (argsOf m c) where
  W1 := V_main_arg3 m c
  b1 := b1_read m c
  W2row := W2row_read m c
  W2col := W2col_read m c
  W2e := W2e_read m c
  b2 := b2_read m c
  scale := scale_read m c
  shift := shift_read m c
  W3 := V_main_arg11 m c
  b3 := b3_read m c

end Cert.KernelIdeal.Entry

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.KernelBlock.lean ====
/-
  What the kernel body stores, read at an entry of its block: row `r` of the output block is the kernel's
  arrangement of the result row, from row `r` of the two node blocks and of the attribute block and the resident blocks.
-/
import proofs.«135754_j76768245449004_1_alg».proof.Proof.Spec
import proofs.«135754_j76768245449004_1_alg».proof.Proof.LibMatmulPlain
import proofs.«135754_j76768245449004_1_alg».proof.Proof.Gen.KernelIdeal.Frame
import Idealize.ShloMosaic.Lib.Pipeline.Value
import Idealize.ShloMosaic.Lib.ValueLayout

noncomputable section

namespace Cert.KernelIdeal.Block

open Idealize.ShloMosaic Idealize.ShloMosaic.ValueIdx
open Cert.KernelIdeal Cert.KernelIdeal.Gen Cert.EdgeModel

/-- The zero offsets of a whole-block rectangle, spelt as a constant function. -/
theorem zero_off : (![0, 0] : Fin 2 → Nat) = fun _ => 0 := funext fun a => by fin_cases a <;> rfl

/-- The two contraction records of the body are the plain matrix product's. -/
theorem dot32_plain : dot_S2048x32_S32x128_S2048x128_1_0_0_1_n_n = DotDims.plain 2048 32 128 := rfl
theorem dot128_plain : dot_S2048x128_S128x128_S2048x128_1_0_0_1_n_n = DotDims.plain 2048 128 128 := rfl

/-- Entry `(r, k)` of the product of a 2048 × 32 block by a 32 × 128 matrix into the zero block. -/
theorem mm32_apply {φ₁ φ₂ : FTy} (l : FVec Ideal S2048x32 φ₁) (w : FVec Ideal S32x128 φ₂) (r : Fin 2048) (k : Fin 128) :
    matmul dot_S2048x32_S32x128_S2048x128_1_0_0_1_n_n none l w (constant S2048x128 .f32 0x00000000#32) (ix2 r k)
      = ∑ i : Fin 32, l (ix2 r i) * w (ix2 i k) := by
  rw [dot32_plain]
  exact MatmulPlain.matmul_zero_apply none l w r k

/-- Entry `(r, k)` of the product of a 2048 × 128 block by a 128 × 128 matrix into the zero block. -/
theorem mm128_apply {φ₁ φ₂ : FTy} (l : FVec Ideal S2048x128 φ₁) (w : FVec Ideal S128x128 φ₂) (r : Fin 2048) (k : Fin 128) :
    matmul dot_S2048x128_S128x128_S2048x128_1_0_0_1_n_n none l w (constant S2048x128 .f32 0x00000000#32) (ix2 r k)
      = ∑ i : Fin 128, l (ix2 r i) * w (ix2 i k) := by
  rw [dot128_plain]
  exact MatmulPlain.matmul_zero_apply none l w r k

/-- A one-row array spread over the 2048 rows reads its one row everywhere. -/
theorem row_apply (v : FVec Ideal S1x128 .f32) (r : Fin 2048) (k : Fin 128) :
    broadcastTo S2048x128 v broadcasts_S1x128_S2048x128 (ix2 r k) = v (ix2 (0 : Fin 1) k) :=
  broadcastTo_1b_ab_apply v broadcasts_S1x128_S2048x128 r k

/-- The hyperbolic tangent of an array, entry by entry. -/
theorem tanh_apply {s : Shape} {φ : FTy} (a : FVec Ideal s φ) (i : s.Idx) : tanh a i = Ideal.tanh (a i) := rfl

/-- Entry `(r, k)` of the first linear layer as the body computes it. -/
theorem pay2_apply (v0 v3 : Vec Ideal S2048x128 .f32) (v6 : Vec Ideal S2048x32 .f32) (v9 : Vec Ideal S32x128 .f32)
    (v12 : Vec Ideal S1x128 .f32) (v18 v21 v24 : Vec Ideal S128x128 .f32) (v32 : Vec Ideal S1x128 .f32)
    (r : Fin 2048) (k : Fin 128) :
    k0_pay2 (F := Ideal) v0 v3 v6 v9 v12 v18 v21 v24 v32 (ix2 r k)
      = (((∑ i : Fin 128, v0 (ix2 r i) * v18 (ix2 i k)) + (∑ i : Fin 128, v3 (ix2 r i) * v21 (ix2 i k)))
          + (∑ i : Fin 128, Ideal.tanh ((∑ l : Fin 32, v6 (ix2 r l) * v9 (ix2 l i)) + v12 (ix2 (0 : Fin 1) i))
              * v24 (ix2 i k)))
        + v32 (ix2 (0 : Fin 1) k) := by
  unfold k0_pay2
  simp only [shapeCast_self, addf_apply, mm128_apply, mm32_apply, truncf_apply, tanh_apply, row_apply]

/-- Entry `(r, j)` of the stored value, from the first linear layer's entries of row `r`. -/
theorem pay1_apply (v35 : FVec Ideal S2048x128 .f32) (v36 v40 : Vec Ideal S1x128 .f32) (v47 : Vec Ideal S128x128 .f32)
    (v50 : Vec Ideal S1x128 .f32) (r : Fin 2048) (j : Fin 128) :
    k0_pay1 (F := Ideal) v35 v36 v40 v47 v50 (ix2 r j)
      = max ((∑ k : Fin 128, max (v35 (ix2 r k) * v36 (ix2 (0 : Fin 1) k) + v40 (ix2 (0 : Fin 1) k)) zeroF
              * v47 (ix2 k j)) + v50 (ix2 (0 : Fin 1) j)) zeroF := by
  unfold k0_pay1
  simp only [shapeCast_self, addf_apply, mulf_apply, maximumf_apply, mm128_apply, truncf_apply, broadcast_apply, row_apply]
  rfl

/-- Entry `(r, j)` of the stored block. -/
theorem out_block_apply (x0 x1 : Vec Ideal S2048x128 .f32) (x2 : Vec Ideal S2048x32 .f32) (x3 : Vec Ideal S32x128 .f32)
    (x4 : Vec Ideal S1x128 .f32) (x5 x6 x7 : Vec Ideal S128x128 .f32) (x8 x9 x10 : Vec Ideal S1x128 .f32)
    (x11 : Vec Ideal S128x128 .f32) (x12 : Vec Ideal S1x128 .f32) (r : Fin 2048) (j : Fin 128) :
    out0_13 (F := Ideal) x0 x1 x2 x3 x4 x5 x6 x7 x8 x9 x10 x11 x12 (ix2 r j)
      = (Resident.mk x3 x4 x5 x6 x7 x8 x9 x10 x11 x12).kOutRow
          (fun i => x0 (ix2 r i)) (fun i => x1 (ix2 r i)) (fun l => x2 (ix2 r l)) j := by
  unfold out0_13
  rw [View.canon_unit_zero zero_off]
  simp only [View.ld_unit_zero (S := S2048x128) zero_off, View.ld_unit_zero (S := S2048x32) zero_off,
    View.ld_unit_zero (S := S32x128) zero_off, View.ld_unit_zero (S := S1x128) zero_off,
    View.ld_unit_zero (S := S128x128) zero_off]
  refine (pay1_apply _ x9 x10 x11 x12 r j).trans ?_
  simp only [pay2_apply]
  rfl

end Cert.KernelIdeal.Block

end
-- ==== Proof.KernelValue.lean ====
/-
  The kernel's result array as one function of the inputs.

  The grid has 245 points; point `t` reads rows 2048·t … 2048·t + 2047 of the two gathered node arrays and of the
  padded attributes, reads the ten resident arrays whole, and writes rows 2048·t … 2048·t + 2047 of the padded output.
  Row by row what it writes is the kernel's arrangement of the result row, so the padded output array is that
  arrangement of every row; the host then keeps the first 500000 rows, which are the real edges, and on those the
  kernel's arrangement equals the reference's.
-/
import proofs.«135754_j76768245449004_1_alg».proof.Proof.Spec
import proofs.«135754_j76768245449004_1_alg».proof.Proof.Algebra
import proofs.«135754_j76768245449004_1_alg».proof.Proof.HostPrefix
import proofs.«135754_j76768245449004_1_alg».proof.Proof.KernelBlock
import proofs.«135754_j76768245449004_1_alg».proof.Proof.Gen.KernelIdeal.Frame
import Idealize.ShloMosaic.Lib.Pipeline.Value
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Entry Cert.KernelIdeal.Block Cert.EdgeModel

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the three edge windows and the output window sit at block row `t`, block column 0;
    every resident window sits at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0 :=
  (by decide +kernel : ∀ t : Fin grid0.N, _)

theorem idx_resident : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- Row `r` of point `t`'s block is row 2048·t + r of the array. -/
def rowAt (t : Fin cfg0.N) (r : Fin 2048) : Fin 501760 :=
  ⟨t.val * 2048 + r.val, by have := t.isLt; have h : cfg0.N = 245 := N_0; have := r.isLt; omega⟩

/-! ## The blocks the body reads -/

theorem rows_block (c : Dev nD) (t : Fin cfg0.N) (r : Fin 2048) (k : Fin 128) :
    iblk m c 0 t (ix2 r k) = rowsOf m c (ix2 (rowAt t r) k) := by
  obtain ⟨e0, e1, -⟩ := idx_facts t
  show V m c main_v13 (((cfg0.win 0).blk t).view.emb (ix2 r k)) = V m c main_v13 (ix2 (rowAt t r) k)
  refine congrArg _ (funext fun a => Fin.ext ?_)
  match a with
  | ⟨0, _⟩ => show win0_0.index t (0 : Fin 2) * 2048 + 1 * r.val = t.val * 2048 + r.val; rw [e0]; omega
  | ⟨1, _⟩ => show win0_0.index t (1 : Fin 2) * 128 + 1 * k.val = k.val; rw [e1]; omega

theorem cols_block (c : Dev nD) (t : Fin cfg0.N) (r : Fin 2048) (k : Fin 128) :
    iblk m c 1 t (ix2 r k) = colsOf m c (ix2 (rowAt t r) k) := by
  obtain ⟨-, -, e0, e1, -⟩ := idx_facts t
  show V m c main_v20 (((cfg0.win 1).blk t).view.emb (ix2 r k)) = V m c main_v20 (ix2 (rowAt t r) k)
  refine congrArg _ (funext fun a => Fin.ext ?_)
  match a with
  | ⟨0, _⟩ => show win0_1.index t (0 : Fin 2) * 2048 + 1 * r.val = t.val * 2048 + r.val; rw [e0]; omega
  | ⟨1, _⟩ => show win0_1.index t (1 : Fin 2) * 128 + 1 * k.val = k.val; rw [e1]; omega

theorem attr_block (c : Dev nD) (t : Fin cfg0.N) (r : Fin 2048) (l : Fin 32) :
    iblk m c 2 t (ix2 r l) = attrOf m c (ix2 (rowAt t r) l) := by
  obtain ⟨-, -, -, -, e0, e1, -⟩ := idx_facts t
  show V m c main_v6 (((cfg0.win 2).blk t).view.emb (ix2 r l)) = V m c main_v6 (ix2 (rowAt t r) l)
  refine congrArg _ (funext fun a => Fin.ext ?_)
  match a with
  | ⟨0, _⟩ => show win0_2.index t (0 : Fin 2) * 2048 + 1 * r.val = t.val * 2048 + r.val; rw [e0]; omega
  | ⟨1, _⟩ => show win0_2.index t (1 : Fin 2) * 32 + 1 * l.val = l.val; rw [e1]; omega

/-! ## The resident windows' blocks are their whole arrays -/

theorem resident_block3 (c : Dev nD) (t : Fin cfg0.N) : (iblk m c 3 t : FVec Ideal S32x128 .f32) = V m c main_arg3 := by
  obtain ⟨e0, e1⟩ := (idx_resident t).1
  funext z
  show V m c main_arg3 (((cfg0.win 3).blk t).view.emb z) = V m c main_arg3 z
  refine congrArg _ (funext fun a => Fin.ext ?_)
  match a with
  | ⟨0, _⟩ => show win0_3.index t (0 : Fin 2) * 32 + 1 * (z 0).val = (z 0).val; rw [e0]; omega
  | ⟨1, _⟩ => show win0_3.index t (1 : Fin 2) * 128 + 1 * (z 1).val = (z 1).val; rw [e1]; omega

theorem resident_block4 (c : Dev nD) (t : Fin cfg0.N) : (iblk m c 4 t : FVec Ideal S1x128 .f32) = V m c main_v30 := by
  obtain ⟨e0, e1⟩ := (idx_resident t).2.1
  funext z
  show V m c main_v30 (((cfg0.win 4).blk t).view.emb z) = V m c main_v30 z
  refine congrArg _ (funext fun a => Fin.ext ?_)
  match a with
  | ⟨0, _⟩ => show win0_4.index t (0 : Fin 2) * 1 + 1 * (z 0).val = (z 0).val; rw [e0]; omega
  | ⟨1, _⟩ => show win0_4.index t (1 : Fin 2) * 128 + 1 * (z 1).val = (z 1).val; rw [e1]; omega

theorem resident_block5 (c : Dev nD) (t : Fin cfg0.N) : (iblk m c 5 t : FVec Ideal S128x128 .f32) = V m c main_v21 := by
  obtain ⟨e0, e1⟩ := (idx_resident t).2.2.1
  funext z
  show V m c main_v21 (((cfg0.win 5).blk t).view.emb z) = V m c main_v21 z
  refine congrArg _ (funext fun a => Fin.ext ?_)
  match a with
  | ⟨0, _⟩ => show win0_5.index t (0 : Fin 2) * 128 + 1 * (z 0).val = (z 0).val; rw [e0]; omega
  | ⟨1, _⟩ => show win0_5.index t (1 : Fin 2) * 128 + 1 * (z 1).val = (z 1).val; rw [e1]; omega

theorem resident_block6 (c : Dev nD) (t : Fin cfg0.N) : (iblk m c 6 t : FVec Ideal S128x128 .f32) = V m c main_v22 := by
  obtain ⟨e0, e1⟩ := (idx_resident t).2.2.2.1
  funext z
  show V m c main_v22 (((cfg0.win 6).blk t).view.emb z) = V m c main_v22 z
  refine congrArg _ (funext fun a => Fin.ext ?_)
  match a with
  | ⟨0, _⟩ => show win0_6.index t (0 : Fin 2) * 128 + 1 * (z 0).val = (z 0).val; rw [e0]; omega
  | ⟨1, _⟩ => show win0_6.index t (1 : Fin 2) * 128 + 1 * (z 1).val = (z 1).val; rw [e1]; omega

theorem resident_block7 (c : Dev nD) (t : Fin cfg0.N) : (iblk m c 7 t : FVec Ideal S128x128 .f32) = V m c main_v23 := by
  obtain ⟨e0, e1⟩ := (idx_resident t).2.2.2.2.1
  funext z
  show V m c main_v23 (((cfg0.win 7).blk t).view.emb z) = V m c main_v23 z
  refine congrArg _ (funext fun a => Fin.ext ?_)
  match a with
  | ⟨0, _⟩ => show win0_7.index t (0 : Fin 2) * 128 + 1 * (z 0).val = (z 0).val; rw [e0]; omega
  | ⟨1, _⟩ => show win0_7.index t (1 : Fin 2) * 128 + 1 * (z 1).val = (z 1).val; rw [e1]; omega

theorem resident_block8 (c : Dev nD) (t : Fin cfg0.N) : (iblk m c 8 t : FVec Ideal S1x128 .f32) = V m c main_v31 := by
  obtain ⟨e0, e1⟩ := (idx_resident t).2.2.2.2.2.1
  funext z
  show V m c main_v31 (((cfg0.win 8).blk t).view.emb z) = V m c main_v31 z
  refine congrArg _ (funext fun a => Fin.ext ?_)
  match a with
  | ⟨0, _⟩ => show win0_8.index t (0 : Fin 2) * 1 + 1 * (z 0).val = (z 0).val; rw [e0]; omega
  | ⟨1, _⟩ => show win0_8.index t (1 : Fin 2) * 128 + 1 * (z 1).val = (z 1).val; rw [e1]; omega

theorem resident_block9 (c : Dev nD) (t : Fin cfg0.N) : (iblk m c 9 t : FVec Ideal S1x128 .f32) = V m c main_v33 := by
  obtain ⟨e0, e1⟩ := (idx_resident t).2.2.2.2.2.2.1
  funext z
  show V m c main_v33 (((cfg0.win 9).blk t).view.emb z) = V m c main_v33 z
  refine congrArg _ (funext fun a => Fin.ext ?_)
  match a with
  | ⟨0, _⟩ => show win0_9.index t (0 : Fin 2) * 1 + 1 * (z 0).val = (z 0).val; rw [e0]; omega
  | ⟨1, _⟩ => show win0_9.index t (1 : Fin 2) * 128 + 1 * (z 1).val = (z 1).val; rw [e1]; omega

theorem resident_block10 (c : Dev nD) (t : Fin cfg0.N) : (iblk m c 10 t : FVec Ideal S1x128 .f32) = V m c main_v34 := by
  obtain ⟨e0, e1⟩ := (idx_resident t).2.2.2.2.2.2.2.1
  funext z
  show V m c main_v34 (((cfg0.win 10).blk t).view.emb z) = V m c main_v34 z
  refine congrArg _ (funext fun a => Fin.ext ?_)
  match a with
  | ⟨0, _⟩ => show win0_10.index t (0 : Fin 2) * 1 + 1 * (z 0).val = (z 0).val; rw [e0]; omega
  | ⟨1, _⟩ => show win0_10.index t (1 : Fin 2) * 128 + 1 * (z 1).val = (z 1).val; rw [e1]; omega

theorem resident_block11 (c : Dev nD) (t : Fin cfg0.N) : (iblk m c 11 t : FVec Ideal S128x128 .f32) = V m c main_arg11 := by
  obtain ⟨e0, e1⟩ := (idx_resident t).2.2.2.2.2.2.2.2.1
  funext z
  show V m c main_arg11 (((cfg0.win 11).blk t).view.emb z) = V m c main_arg11 z
  refine congrArg _ (funext fun a => Fin.ext ?_)
  match a with
  | ⟨0, _⟩ => show win0_11.index t (0 : Fin 2) * 128 + 1 * (z 0).val = (z 0).val; rw [e0]; omega
  | ⟨1, _⟩ => show win0_11.index t (1 : Fin 2) * 128 + 1 * (z 1).val = (z 1).val; rw [e1]; omega

theorem resident_block12 (c : Dev nD) (t : Fin cfg0.N) : (iblk m c 12 t : FVec Ideal S1x128 .f32) = V m c main_v32 := by
  obtain ⟨e0, e1⟩ := (idx_resident t).2.2.2.2.2.2.2.2.2
  funext z
  show V m c main_v32 (((cfg0.win 12).blk t).view.emb z) = V m c main_v32 z
  refine congrArg _ (funext fun a => Fin.ext ?_)
  match a with
  | ⟨0, _⟩ => show win0_12.index t (0 : Fin 2) * 1 + 1 * (z 0).val = (z 0).val; rw [e0]; omega
  | ⟨1, _⟩ => show win0_12.index t (1 : Fin 2) * 128 + 1 * (z 1).val = (z 1).val; rw [e1]; omega

/-- The ten resident blocks at any point are the resident arrays. -/
theorem resident_blocks (c : Dev nD) (t : Fin cfg0.N) :
    Resident.mk (iblk m c 3 t) (iblk m c 4 t) (iblk m c 5 t) (iblk m c 6 t) (iblk m c 7 t) (iblk m c 8 t)
      (iblk m c 9 t) (iblk m c 10 t) (iblk m c 11 t) (iblk m c 12 t) = residentOf m c := by
  unfold residentOf
  rw [resident_block3 m c t, resident_block4 m c t, resident_block5 m c t, resident_block6 m c t, resident_block7 m c t,
    resident_block8 m c t, resident_block9 m c t, resident_block10 m c t, resident_block11 m c t, resident_block12 m c t]

/-! ## What a point writes back -/

/-- Two arrays of rank two agree when they agree at every pair of coordinates. -/
theorem ext_ix2 {α : Type} {n0 n1 : Nat} (f g : (⟨2, ![n0, n1]⟩ : Shape).Idx → α)
    (h : ∀ (r : Fin n0) (j : Fin n1), f (ix2 r j) = g (ix2 r j)) : f = g :=
  funext fun y => by rw [eq_ix2 y]; exact h _ _

/-- One entry of a stored block against the array-level form, over variables: if row `r` of the three edge blocks is
    row `E` of the three edge arrays and the resident blocks are the resident arrays, entry `(r, j)` of the stored
    block is entry `(E, j)` of the kernel's arrangement over the arrays. -/
theorem block_entry (x0 x1 : Vec Ideal S2048x128 .f32) (x2 : Vec Ideal S2048x32 .f32) (x3 : Vec Ideal S32x128 .f32)
    (x4 : Vec Ideal S1x128 .f32) (x5 x6 x7 : Vec Ideal S128x128 .f32) (x8 x9 x10 : Vec Ideal S1x128 .f32)
    (x11 : Vec Ideal S128x128 .f32) (x12 : Vec Ideal S1x128 .f32)
    (Xr Xc : FVec Ideal ⟨2, ![501760, 128]⟩ .f32) (At : FVec Ideal ⟨2, ![501760, 32]⟩ .f32) (R : Resident)
    (r : Fin 2048) (j : Fin 128) (E : Fin 501760)
    (h0 : ∀ k : Fin 128, x0 (ix2 r k) = Xr (ix2 E k)) (h1 : ∀ k : Fin 128, x1 (ix2 r k) = Xc (ix2 E k))
    (h2 : ∀ l : Fin 32, x2 (ix2 r l) = At (ix2 E l))
    (hR : Resident.mk x3 x4 x5 x6 x7 x8 x9 x10 x11 x12 = R) :
    out0_13 (F := Ideal) x0 x1 x2 x3 x4 x5 x6 x7 x8 x9 x10 x11 x12 (ix2 r j) = kForm Xr Xc At R (ix2 E j) := by
  rw [out_block_apply, hR, funext h0, funext h1, funext h2]
  rfl

/-- WHAT POINT `t` WRITES BACK is block `t` of the kernel's arrangement over the region-entry arrays. -/
theorem flushed_eq (c : Dev nD) (t : Fin cfg0.N) :
    (dats m 0 c).flushed 13 t
      = ((cfg0.win 13).blk t).view.read (Elt Ideal) (kForm (rowsOf m c) (colsOf m c) (attrOf m c) (residentOf m c)) := by
  show (cfg0.win 13).cut (grid0.coords t) ((dats m 0 c).after 13 t) = _
  rw [after0_13]
  obtain ⟨-, -, -, -, -, -, e0, e1⟩ := idx_facts t
  refine ext_ix2 (n0 := 2048) (n1 := 128) _ _ fun r j => ?_
  show out0_13 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) (ix2 r j)
    = kForm (rowsOf m c) (colsOf m c) (attrOf m c) (residentOf m c) (((cfg0.win 13).blk t).view.emb (ix2 r j))
  have hemb : ((cfg0.win 13).blk t).view.emb (ix2 r j) = ix2 (rowAt t r) j := funext fun a => Fin.ext (by
    match a with
    | ⟨0, _⟩ => show win0_13.index t (0 : Fin 2) * 2048 + 1 * r.val = t.val * 2048 + r.val; rw [e0]; omega
    | ⟨1, _⟩ => show win0_13.index t (1 : Fin 2) * 128 + 1 * j.val = j.val; rw [e1]; omega)
  rw [hemb]
  exact block_entry (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (rowsOf m c) (colsOf m c) (attrOf m c) (residentOf m c) r j (rowAt t r)
    (rows_block m c t r) (cols_block m c t r) (attr_block m c t r) (resident_blocks m c t)

/-! ## The blocks cover the array -/

/-- An index of the padded output is in point `t`'s block iff each coordinate is in the block's range on its axis. -/
theorem mem_blk (t : Fin cfg0.N) (i : S501760x128.Idx) :
    i ∈ ((cfg0.win 13).blk t).view.set ↔ ∀ a : Fin 2, win0_13.index t a * S2048x128.size a ≤ (i a).val
      ∧ (i a).val < win0_13.index t a * S2048x128.size a + S2048x128.size a := by
  show i ∈ ((View.whole main_v35).slice (win0_13.rect t)).set ↔ _
  rw [View.set_slice_whole, Rect.mem_set_unit]
  exact Iff.rfl

/-- Row `E` lies in the block of point `E / 2048`. -/
theorem cover (i : S501760x128.Idx) :
    ∃ t : Fin cfg0.N, (cfg0.win 13).flush t = true ∧ i ∈ ((cfg0.win 13).blk t).view.set := by
  have hi0 : (i 0).val < 501760 := (i 0).isLt
  have hi1 : (i 1).val < 128 := (i 1).isLt
  have hN : cfg0.N = 245 := N_0
  let t : Fin cfg0.N := ⟨(i 0).val / 2048, by omega⟩
  have ht : t.val = (i 0).val / 2048 := rfl
  obtain ⟨-, -, -, -, -, -, e0, e1⟩ := idx_facts t
  refine ⟨t, flush0_13 t, ?_⟩
  rw [mem_blk]
  intro a
  match a with
  | ⟨0, _⟩ =>
    show win0_13.index t (0 : Fin 2) * 2048 ≤ (i 0).val ∧ (i 0).val < win0_13.index t (0 : Fin 2) * 2048 + 2048
    rw [e0, ht]; omega
  | ⟨1, _⟩ =>
    show win0_13.index t (1 : Fin 2) * 128 ≤ (i 1).val ∧ (i 1).val < win0_13.index t (1 : Fin 2) * 128 + 128
    rw [e1]; omega

/-- THE PADDED OUTPUT after the run: the kernel's arrangement of every row. -/
theorem final (c : Dev nD) :
    (dats m 0 c).arrAt 13 cfg0.N = kForm (rowsOf m c) (colsOf m c) (attrOf m c) (residentOf m c) :=
  (dats m 0 c).arrAt_eq_of_cover 13 _ (fun t _ => flushed_eq m c t) cover

/-! ## The host keeps the first 500000 rows -/

/-- The result buffer after the lines that follow the region: the first 500000 rows of the padded output. -/
theorem tail_eq (c : Dev nD) :
    Pipeline.afterTail₀ cfgs (dats m) 0 (V0 m) [hostOps1] c main_v36
      = extractStridedSlice S500000x128 ![0, 0] (kForm (rowsOf m c) (colsOf m c) (attrOf m c) (residentOf m c))
          slices_S501760x128_S500000x128_0_0 := by
  unfold Pipeline.afterTail₀
  show StableHlo.after hostOps1 _ (Proc.devRef .tc main_v36) = _
  after_results
  exact congrArg (fun X => extractStridedSlice S500000x128 ![0, 0] X slices_S501760x128_S500000x128_0_0)
    ((Pipeline.withArrays_arr spec0 launch0.win.arr_inj c (V0 m c) (fun w => (dats m 0 c).arrAt w cfg0.N) 13).trans
      (final m c))

/-- On the real edges the kernel's arrangement is the reference's: the kept rows are `G` of the inputs. -/
theorem kept_rows (c : Dev nD) (hF : (argsOf m c).Finite) :
    extractStridedSlice S500000x128 ![0, 0] (kForm (rowsOf m c) (colsOf m c) (attrOf m c) (residentOf m c))
        slices_S501760x128_S500000x128_0_0
      = (argsOf m c).G := by
  refine ext_ix2 (n0 := 500000) (n1 := 128) _ _ fun e j => ?_
  rw [extractStridedSlice_apply ![0, 0] _ slices_S501760x128_S500000x128_0_0 (ix2 e j) (ix2 (padRow e) j)
    (fun a => by
      match a with
      | ⟨0, _⟩ => show e.val = 0 + e.val; omega
      | ⟨1, _⟩ => show j.val = 0 + j.val; omega)]
  show (residentOf m c).kOutRow (fun k => rowsOf m c (ix2 (padRow e) k)) (fun k => colsOf m c (ix2 (padRow e) k))
      (fun l => attrOf m c (ix2 (padRow e) l)) j = (argsOf m c).refOut e j
  rw [funext (rows_read m c e), funext (cols_read m c e), funext (attr_read m c e)]
  exact kOutRow_eq_refOut (argsOf m c) hF (residentOf m c) (resident_reads m c) e j

/-! ## The run, read -/

/-- The frame run re-posted: the result at `G` of the inputs, the inputs unchanged. -/
theorem run (hF : ∀ c : Dev nD, (argsOf m c).Finite) :
    θ_run defs (onTc (τ := τ) (main (F := Ideal))) ⟨m, fun _ => 0, ρ⟩ fun r => ∀ c : Dev nD,
      r.2.mem ((c.tc : Thread nD τ).loc main_v36) = (argsOf m c).G
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨
      (((h c).2 main_v36 (Pipeline.mem_restRefs_of main_v36 (by decide) (by decide))).trans (tail_eq m c)).trans
        (kept_rows m c (hF c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans ((((dats m) 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      ((h c).1 11).trans ((((dats m) 0 c).arrAt_in 11 rfl _).trans ((A_eq m c 11).trans (V_main_arg11 m c))),
      (((h c).2 main_arg12 (Pipeline.mem_restRefs_of main_arg12 (by decide) (by decide))).trans (W_main_arg12 m (dats m) c))⟩)
    (run_main m ρ)

end Cert.KernelIdeal.Result

end
-- ==== Proof.lean ====
/-
  The certificate of the edge model's kernel against its reference, over the extended reals.

  For each edge the model joins the two end nodes' feature rows with a learned feature of the edge's attributes,
  applies a linear layer, a batch norm in evaluation mode, a rectifier, a second linear layer and a rectifier. The
  reference does this on whole arrays (one product of the 384-wide joined rows by `W2`; the batch norm as
  `(h − μ) · γ / √(var + ε) + β`); the kernel works on blocks of 2048 edges of arrays padded to 501760 rows, contracts the
  three 128-row bands of `W2` separately and folds the batch norm into one scale and one shift.

  The precondition says that every float input is finite and that the variance is not negative. Then
  `√(var + ε)` is a positive real, the scale is a real, and the two arrangements of the batch norm agree; without it
  a variance of exactly `−ε` makes the scale infinite, where `(h − μ) · ∞ + β` and `h · ∞ + (β − μ · ∞)` differ.

  The pieces: `Proof/Spec.lean` states both arrangements of one result row; `Proof/Algebra.lean` proves them equal under
  the precondition's facts, which `Proof/PreFacts.lean` reads off the precondition; `Proof/RefValue.lean` shows the
  reference's result is the specification; `Proof/HostPrefix.lean`, `Proof/KernelBlock.lean` and
  `Proof/KernelValue.lean` show the kernel's result is the specification on the 500000 real edges. The frames of the
  two kernel programs are the generated ones; the reference's frame is its run with the result dropped.
-/
import proofs.«135754_j76768245449004_1_alg».proof.Defs
import proofs.«135754_j76768245449004_1_alg».proof.Proof.Gen.Kernel
import proofs.«135754_j76768245449004_1_alg».proof.Proof.Gen.Kernel.Skeleton
import proofs.«135754_j76768245449004_1_alg».proof.Proof.Gen.Kernel.Launch
import proofs.«135754_j76768245449004_1_alg».proof.Proof.Gen.Kernel.Points
import proofs.«135754_j76768245449004_1_alg».proof.Proof.Gen.Kernel.Frame
import proofs.«135754_j76768245449004_1_alg».proof.Proof.Gen.KernelIdeal
import proofs.«135754_j76768245449004_1_alg».proof.Proof.Gen.KernelIdeal.Skeleton
import proofs.«135754_j76768245449004_1_alg».proof.Proof.Gen.KernelIdeal.Launch
import proofs.«135754_j76768245449004_1_alg».proof.Proof.Gen.KernelIdeal.Points
import proofs.«135754_j76768245449004_1_alg».proof.Proof.Gen.KernelIdeal.Frame
import proofs.«135754_j76768245449004_1_alg».proof.Proof.Gen.ReferenceIdeal
import proofs.«135754_j76768245449004_1_alg».proof.Proof.Gen.ReferenceIdeal.Run
import proofs.«135754_j76768245449004_1_alg».proof.Proof.Gen.ReferenceIdeal.Read
import proofs.«135754_j76768245449004_1_alg».proof.Proof.Gen.Pre_finite_inputs
import proofs.«135754_j76768245449004_1_alg».proof.Proof.Spec
import proofs.«135754_j76768245449004_1_alg».proof.Proof.PreFacts
import proofs.«135754_j76768245449004_1_alg».proof.Proof.RefValue
import proofs.«135754_j76768245449004_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification `G` of the inputs in their result buffers. -/
theorem algebraic : Cert.algebraic_KernelIdeal_ReferenceIdeal := by
  intro m ρ m' ρ' hpre hagree
  have hF : ∀ c : Dev Cert.KernelIdeal.nD, (Cert.KernelIdeal.Entry.argsOf m c).Finite := fun c =>
    Cert.EdgeModel.finite_of_pre _ _ _ _ _ _ _ _ _ _ _ _ _ (hpre c)
  refine ⟨fun c => (Cert.KernelIdeal.Entry.argsOf m c).G, Cert.KernelIdeal.Result.run m ρ hF, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v46_eq, Cert.EdgeModel.RefValue.reference_eq,
    h0, h1, h2, h3, h4, h5, h6, h7, h8, h9, h10, h11, h12]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
